-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x2048x512 : Shape := ⟨3, ![8, 2048, 512]⟩
abbrev S8x2048x2048 : Shape := ⟨3, ![8, 2048, 2048]⟩
abbrev S1x2048x512 : Shape := ⟨3, ![1, 2048, 512]⟩
abbrev S1x256x2048 : Shape := ⟨3, ![1, 256, 2048]⟩
abbrev S2048x512 : Shape := ⟨2, ![2048, 512]⟩
abbrev S2048x2048 : Shape := ⟨2, ![2048, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x256x2048, .f32⟩
  | .local _ .vmem, ⟨3, _⟩ => ⟨S1x256x2048, .f32⟩
  | .local _ .vmem, ⟨4, _⟩ => ⟨S2048x512, .bf16⟩
  | .local _ .vmem, ⟨5, _⟩ => ⟨S2048x512, .bf16⟩
  | .local _ .vmem, ⟨6, _⟩ => ⟨S2048x2048, .bf16⟩
  | .local _ .vmem, ⟨7, _⟩ => ⟨S2048x2048, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  slices_S2048x512_o0_0_S256x512 : S2048x512.Slices ![0, 0] S256x512
  reduces_S256x2048_S256 : S256x2048.Reduces [1] S256
  shapeCasts_S256_S256x1 : S256.ShapeCasts S256x1
  broadcasts_S256x1_S256x2048 : S256x1.Broadcasts S256x2048
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  packedbf16_S2048x2048_S256x2048_0_0 : (Rect.unit (s := S2048x2048) ![0, 0] S256x2048.size inb_S2048x2048_S256x2048_0_0).PackedRows (EltTy.packing .bf16)
  slices_S2048x512_o256_0_S256x512 : S2048x512.Slices ![256, 0] S256x512
  inb_S2048x2048_S256x2048_256_0 : ∀ a, (![256, 0] : Fin 2 → Nat) a + S256x2048.size a ≤ S2048x2048.size a
  packedbf16_S2048x2048_S256x2048_256_0 : (Rect.unit (s := S2048x2048) ![256, 0] S256x2048.size inb_S2048x2048_S256x2048_256_0).PackedRows (EltTy.packing .bf16)
  slices_S2048x512_o512_0_S256x512 : S2048x512.Slices ![512, 0] S256x512
  inb_S2048x2048_S256x2048_512_0 : ∀ a, (![512, 0] : Fin 2 → Nat) a + S256x2048.size a ≤ S2048x2048.size a
  packedbf16_S2048x2048_S256x2048_512_0 : (Rect.unit (s := S2048x2048) ![512, 0] S256x2048.size inb_S2048x2048_S256x2048_512_0).PackedRows (EltTy.packing .bf16)
  slices_S2048x512_o768_0_S256x512 : S2048x512.Slices ![768, 0] S256x512
  inb_S2048x2048_S256x2048_768_0 : ∀ a, (![768, 0] : Fin 2 → Nat) a + S256x2048.size a ≤ S2048x2048.size a
  packedbf16_S2048x2048_S256x2048_768_0 : (Rect.unit (s := S2048x2048) ![768, 0] S256x2048.size inb_S2048x2048_S256x2048_768_0).PackedRows (EltTy.packing .bf16)
  slices_S2048x512_o1024_0_S256x512 : S2048x512.Slices ![1024, 0] S256x512
  inb_S2048x2048_S256x2048_1024_0 : ∀ a, (![1024, 0] : Fin 2 → Nat) a + S256x2048.size a ≤ S2048x2048.size a
  packedbf16_S2048x2048_S256x2048_1024_0 : (Rect.unit (s := S2048x2048) ![1024, 0] S256x2048.size inb_S2048x2048_S256x2048_1024_0).PackedRows (EltTy.packing .bf16)
  slices_S2048x512_o1280_0_S256x512 : S2048x512.Slices ![1280, 0] S256x512
  inb_S2048x2048_S256x2048_1280_0 : ∀ a, (![1280, 0] : Fin 2 → Nat) a + S256x2048.size a ≤ S2048x2048.size a
  packedbf16_S2048x2048_S256x2048_1280_0 : (Rect.unit (s := S2048x2048) ![1280, 0] S256x2048.size inb_S2048x2048_S256x2048_1280_0).PackedRows (EltTy.packing .bf16)
  slices_S2048x512_o1536_0_S256x512 : S2048x512.Slices ![1536, 0] S256x512
  inb_S2048x2048_S256x2048_1536_0 : ∀ a, (![1536, 0] : Fin 2 → Nat) a + S256x2048.size a ≤ S2048x2048.size a
  packedbf16_S2048x2048_S256x2048_1536_0 : (Rect.unit (s := S2048x2048) ![1536, 0] S256x2048.size inb_S2048x2048_S256x2048_1536_0).PackedRows (EltTy.packing .bf16)
  slices_S2048x512_o1792_0_S256x512 : S2048x512.Slices ![1792, 0] S256x512
  inb_S2048x2048_S256x2048_1792_0 : ∀ a, (![1792, 0] : Fin 2 → Nat) a + S256x2048.size a ≤ S2048x2048.size a
  packedbf16_S2048x2048_S256x2048_1792_0 : (Rect.unit (s := S2048x2048) ![1792, 0] S256x2048.size inb_S2048x2048_S256x2048_1792_0).PackedRows (EltTy.packing .bf16)
  inb_S2048x2048_S2048x2048_0_0 : ∀ a, (![0, 0] : Fin 2 → Nat) a + S2048x2048.size a ≤ S2048x2048.size a
  h_S2048x2048 : 0 < S2048x2048.numel
  h_S256x512 : 0 < S256x512.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x512_S2048x512_S256x2048_1_1_0_0_n_n_wf : DotDims.WF S256x512 S2048x512 S256x2048 [1] [1] [0] [0] [] []
  dot_S256x2048_S2048x2048_S256x2048_1_1_0_0_n_n_wf : DotDims.WF S256x2048 S2048x2048 S256x2048 [1] [1] [0] [0] [] []
  dot_S256x2048_S2048x2048_S256x2048_1_0_0_1_n_n_wf : DotDims.WF S256x2048 S2048x2048 S256x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x512.size a ≤ S2048x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S1x2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x2048_S8x2048x2048_1_2_2_1_0_0_wf : DotDims.WF S8x2048x2048 S8x2048x2048 S8x2048x2048 [1] [2] [2] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x2048_S8x2048x2048_1_2_2_1_0_0 : DotDims S8x2048x2048 S8x2048x2048 S8x2048x2048 where
  lhsContracting := [1]
  rhsContracting := [2]
  lhsNonContracting := [2]
  rhsNonContracting := [1]
  lhsBatch := [0]
  rhsBatch := [0]
  wf := dot_S8x2048x2048_S8x2048x2048_S8x2048x2048_1_2_2_1_0_0_wf

class Facts : Prop extends Facts₀ where

variable [Facts]
-- ==== Proof.Spec.lean ====
/-
  The mathematics both programs compute, on the extended reals.

  For one batch, with X1, X2 the two [2048, 512] matrices:
    A(X)   = row softmax of X Xᵀ          (each row: exp (s - max s) / Σ exp (s - max s))
    X12    = X1 X2ᵀ
    T      = X12 A(X2)ᵀ                    T j l = Σ_k X12 j k · A(X2) l k
    Out    = A(X1) T                       Out i l = Σ_j A(X1) i j · T j l
  The kernel computes Out in this association; the reference contracts A(X1) against X12 first and A(X2) last
  (OutRef). The two agree when every entry is a real number: the softmax entries and the products are then real,
  and a finite double sum of reals may be regrouped.
-/
import Idealize.ShloMosaic.PureOps.Ideal
import Idealize.ShloMosaic.Lib.ValueIdx

noncomputable section

namespace Bilinear

open Idealize.ShloMosaic Idealize.ShloMosaic.ValueIdx

/-- An extended real that is a real number. -/
def IsReal (x : EReal) : Prop := ∃ r : ℝ, x = (r : EReal)

/-- The product of row `i` of `a` with row `j` of `b` (an entry of `a bᵀ`). -/
def gram {n m d : ℕ} (a : Fin n → Fin d → EReal) (b : Fin m → Fin d → EReal) (i : Fin n) (j : Fin m) : EReal :=
  ∑ k : Fin d, a i k * b j k

/-- The maximum of a row, folded from -∞. -/
def rowMax {n : ℕ} (s : Fin n → EReal) : EReal := (Finset.univ : Finset (Fin n)).fold max ⊥ s

/-- The softmax of a row, as both programs compute it: shift by the maximum, exponentiate, divide by the sum. -/
def smx {n : ℕ} (s : Fin n → EReal) (c : Fin n) : EReal :=
  Ideal.div (Ideal.exp (s c - rowMax s)) (∑ c' : Fin n, Ideal.exp (s c' - rowMax s))

/-- The row softmax of `x xᵀ`. -/
def Asm {n d : ℕ} (x : Fin n → Fin d → EReal) (r c : Fin n) : EReal := smx (gram x x r) c

/-- `T = (x1 x2ᵀ) A(x2)ᵀ`. -/
def Tm {n d : ℕ} (x1 x2 : Fin n → Fin d → EReal) (j l : Fin n) : EReal := ∑ k : Fin n, gram x1 x2 j k * Asm x2 l k

/-- The kernel's association: `A(x1) T`. -/
def Out {n d : ℕ} (x1 x2 : Fin n → Fin d → EReal) (i l : Fin n) : EReal := ∑ j : Fin n, Asm x1 i j * Tm x1 x2 j l

/-- The reference's association: `((x1 x2ᵀ)ᵀ A(x1)ᵀ)ᵀ A(x2)ᵀ`. -/
def OutRef {n d : ℕ} (x1 x2 : Fin n → Fin d → EReal) (i l : Fin n) : EReal :=
  ∑ k : Fin n, (∑ j : Fin n, gram x1 x2 j k * Asm x1 i j) * Asm x2 l k

/-- Batch `b` of a [8, 2048, 512] array, as a matrix. -/
def sel (a : (⟨3, ![8, 2048, 512]⟩ : Shape).Idx → EReal) (b : Fin 8) : Fin 2048 → Fin 512 → EReal :=
  fun r d => a (ix3 b r d)

/-- Row `p` of the `c`-th band of 256 rows of a 2048-row matrix. -/
def band (c : ℕ) (hc : c < 8) (p : Fin 256) : Fin 2048 := ⟨256 * c + p.val, by have := p.isLt; omega⟩

/-- The whole result array in the kernel's association. -/
def G (a0 a1 : (⟨3, ![8, 2048, 512]⟩ : Shape).Idx → EReal) : (⟨3, ![8, 2048, 2048]⟩ : Shape).Idx → EReal :=
  fun y => Out (sel a0 ⟨(y 0).val, (y 0).isLt⟩) (sel a1 ⟨(y 0).val, (y 0).isLt⟩) ⟨(y 1).val, (y 1).isLt⟩ ⟨(y 2).val, (y 2).isLt⟩

/-- The whole result array in the reference's association. -/
def GRef (a0 a1 : (⟨3, ![8, 2048, 512]⟩ : Shape).Idx → EReal) : (⟨3, ![8, 2048, 2048]⟩ : Shape).Idx → EReal :=
  fun y => OutRef (sel a0 ⟨(y 0).val, (y 0).isLt⟩) (sel a1 ⟨(y 0).val, (y 0).isLt⟩) ⟨(y 1).val, (y 1).isLt⟩ ⟨(y 2).val, (y 2).isLt⟩

/-! ### Real numbers are closed under the operations involved -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) {f : ι → EReal} (h : ∀ i, IsReal (f i)) :
    IsReal (∑ i ∈ s, f i) := by
  choose g hg using h
  exact ⟨∑ i ∈ s, g i, by rw [coe_sum]; exact Finset.sum_congr rfl fun i _ => hg i⟩

/-- An extended real strictly between -∞ and +∞ is a real number. -/
theorem isReal_of_ne {x : EReal} (hb : x ≠ ⊥) (ht : x ≠ ⊤) : IsReal x :=
  ⟨x.toReal, (EReal.coe_toReal ht hb).symm⟩

/-- Each entry of `a bᵀ` is real when the entries of `a` and `b` are. -/
theorem isReal_gram {n m d : ℕ} {a : Fin n → Fin d → EReal} {b : Fin m → Fin d → EReal}
    (ha : ∀ r k, IsReal (a r k)) (hb : ∀ r k, IsReal (b r k)) (i : Fin n) (j : Fin m) :
    IsReal (gram a b i j) :=
  IsReal.sum _ fun k => (ha i k).mul (hb j k)

/-- The maximum of a nonempty row of reals is real: it is at least one entry (so not -∞), and every entry
    and the seed -∞ lie below +∞. -/
theorem isReal_rowMax {n : ℕ} (hn : 0 < n) {s : Fin n → EReal} (hs : ∀ c, IsReal (s c)) :
    IsReal (rowMax s) := by
  apply isReal_of_ne
  · have hle : s ⟨0, hn⟩ ≤ rowMax s :=
      (Finset.le_fold_max _).2 (Or.inr ⟨⟨0, hn⟩, Finset.mem_univ _, le_rfl⟩)
    obtain ⟨r, hr⟩ := hs ⟨0, hn⟩
    intro hbot
    rw [hbot, hr] at hle
    exact absurd hle (not_le.2 (EReal.bot_lt_coe r))
  · have hlt : rowMax s < ⊤ :=
      (Finset.fold_max_lt _).2 ⟨bot_lt_top, fun c _ => by
        obtain ⟨r, hr⟩ := hs c
        rw [hr]
        exact EReal.coe_lt_top r⟩
    exact hlt.ne

/-- The softmax of a nonempty row of reals is real: the shifted entries are real, their exponentials are
    positive reals, so the denominator is a positive real and the quotient is a product of reals. -/
theorem isReal_smx {n : ℕ} (hn : 0 < n) {s : Fin n → EReal} (hs : ∀ c, IsReal (s c)) (c : Fin n) :
    IsReal (smx s c) := by
  obtain ⟨m, hm⟩ := isReal_rowMax hn hs
  choose a ha using hs
  have hexp : ∀ c', Ideal.exp (s c' - rowMax s) = ((Real.exp (a c' - m) : ℝ) : EReal) := by
    intro c'
    rw [ha c', hm, ← EReal.coe_sub, Ideal.exp_coe]
  have hpos : 0 < ∑ c' : Fin n, Real.exp (a c' - m) :=
    Finset.sum_pos (fun c' _ => Real.exp_pos _) ⟨⟨0, hn⟩, Finset.mem_univ _⟩
  unfold smx
  simp only [hexp, ← coe_sum]
  rw [Ideal.div_coe hpos.ne', ← EReal.coe_mul]
  exact ⟨_, rfl⟩

/-- With real entries the two associations agree: all three factors are real matrices, so both sides are
    the same finite double sum of real products, summed in the two orders. -/
theorem out_eq_outRef {n d : ℕ} (hn : 0 < n) (x1 x2 : Fin n → Fin d → EReal)
    (h1 : ∀ r k, IsReal (x1 r k)) (h2 : ∀ r k, IsReal (x2 r k)) (i l : Fin n) :
    Out x1 x2 i l = OutRef x1 x2 i l := by
  have hg : ∀ j k, IsReal (gram x1 x2 j k) := isReal_gram h1 h2
  have hA1 : ∀ r c, IsReal (Asm x1 r c) := fun r c => isReal_smx hn (isReal_gram h1 h1 r) c
  have hA2 : ∀ r c, IsReal (Asm x2 r c) := fun r c => isReal_smx hn (isReal_gram h2 h2 r) c
  choose g hg using hg
  choose a1 ha1 using hA1
  choose a2 ha2 using hA2
  unfold Out OutRef Tm
  simp only [hg, ha1, ha2, ← EReal.coe_mul, ← coe_sum]
  congr 1
  simp only [Finset.mul_sum, Finset.sum_mul]
  rw [Finset.sum_comm]
  exact Finset.sum_congr rfl fun k _ => Finset.sum_congr rfl fun j _ => by ring

/-- So do the whole arrays. -/
theorem G_eq_GRef (a0 a1 : (⟨3, ![8, 2048, 512]⟩ : Shape).Idx → EReal)
    (h0 : ∀ y, IsReal (a0 y)) (h1 : ∀ y, IsReal (a1 y)) : G a0 a1 = GRef a0 a1 :=
  funext fun y => out_eq_outRef (by decide) _ _ (fun r k => h0 _) (fun r k => h1 _) _ _

end Bilinear

end
-- ==== Proof.Finite.lean ====
/-
  The precondition read: every entry of both argument arrays is a real number.

  The precondition says |x| < +∞ for every entry of either array; on the extended reals that excludes exactly ±∞.
-/
import proofs.«400291_j1580547969010_3_alg».proof.Proof.Gen.Pre_finite_inputs
import proofs.«400291_j1580547969010_3_alg».proof.Proof.Spec
import Idealize.ShloMosaic.Lib.ReduceAll
import Idealize.ShloMosaic.Lib.ValueIdx

noncomputable section

namespace Bilinear.Finite

open Idealize.ShloMosaic Idealize.ShloMosaic.ValueIdx Bilinear

/-- The result of the reduction has a single index. -/
private instance : Subsingleton Cert.Pre_finite_inputs.S_.Idx := ⟨fun a b => funext fun d => d.elim0⟩

/-- The pattern 0x7F800000 is +∞. -/
private theorem inf_pattern : Ideal.ofBits .f32 0x7F800000#32 = (⊤ : EReal) := by
  simp [Ideal.ofBits, Ideal.ieee]

/-- An extended real whose absolute value lies below +∞ is a real number: -∞ and +∞ both have absolute value +∞. -/
private theorem isReal_of_abs_lt_top (x : EReal) (hx : max x (-x) < (⊤ : EReal)) : IsReal x := by
  induction x using EReal.rec with
  | bot => simp at hx
  | coe r => exact ⟨r, rfl⟩
  | top => simp at hx

/-- One entry of the comparison array: |x| < +∞ read as 1 makes x real. -/
private theorem isReal_of_cmp (x : Ideal .f32)
    (hx : FloatOps.cmpf .olt (FloatOps.absf x) (Ideal.ofBits .f32 0x7F800000#32) = 1#1) : IsReal x := by
  rw [inf_pattern] at hx
  change Ideal.cmp .olt (max x (-x)) (⊤ : EReal) = 1#1 at hx
  apply isReal_of_abs_lt_top
  by_contra hn
  simp [Ideal.cmp, hn] at hx

/-- Under the precondition every entry of the two arrays is a real number. -/
theorem real_of_pre (a0 a1 : FVec Ideal Cert.Pre_finite_inputs.S8x2048x512 .f32)
    (h : Cert.Pre_finite_inputs.fn (F := Ideal) a0 a1 = fun _ => 1#1) :
    (∀ y, IsReal (a0 y)) ∧ (∀ y, IsReal (a1 y)) := by
  have h0 := congrFun h ValueIdx.ix0
  dsimp only [Cert.Pre_finite_inputs.fn] at h0
  obtain ⟨e0, e1⟩ := IntOp.andi_eq_one.1 h0
  refine ⟨fun y => ?_, fun y => ?_⟩
  · exact isReal_of_cmp _ (Host.reduce_andi_all _ _ _ _ _ e0 y)
  · exact isReal_of_cmp _ (Host.reduce_andi_all _ _ _ _ _ e1 y)

end Bilinear.Finite

end
-- ==== Proof.RefValue.lean ====
/-
  The reference's result at an index: OutRef, the association that contracts A(x1) against x1 x2ᵀ first.
-/
import proofs.«400291_j1580547969010_3_alg».proof.Proof.Gen.ReferenceIdeal.Read
import proofs.«400291_j1580547969010_3_alg».proof.Proof.Spec
import Idealize.ShloMosaic.Lib.ValueIdx
import Idealize.ShloMosaic.PureOps.Ideal.Laws

noncomputable section

namespace Bilinear.Ref

open Idealize.ShloMosaic Idealize.ShloMosaic.ValueIdx Cert.ReferenceIdeal Cert.ReferenceIdeal.Read Bilinear

/-- The f32 pattern of -∞ denotes the bottom element. -/
private theorem ofBits_negInf : Ideal.ofBits .f32 0xFF800000#32 = (⊥ : EReal) := by
  simp [Ideal.ofBits, Ideal.ieee]

/-- The first product x xᵀ, read at coordinates, is the Gram entry. -/
private theorem v0_ix (x : (⟨S8x2048x512, .f32⟩ : BufTy).Contents (Elt Ideal)) (b : Fin 8) (i j : Fin 2048) :
    val_main_v0 (F := Ideal) x (ix3 b i j) = gram (sel x b) (sel x b) i j := by
  rw [val_main_v0_apply]
  refine Finset.sum_congr rfl fun k _ => ?_
  have hl : lidx_main_v0 (ix3 b i j) k = ix3 b i k :=
    funext fun a => Fin.ext (by match a with | ⟨0, _⟩ => rfl | ⟨1, _⟩ => rfl | ⟨2, _⟩ => rfl)
  have hr : ridx_main_v0 (ix3 b i j) k = ix3 b j k :=
    funext fun a => Fin.ext (by match a with | ⟨0, _⟩ => rfl | ⟨1, _⟩ => rfl | ⟨2, _⟩ => rfl)
  rw [hl, hr]
  rfl

/-- The row maximum: the max-reduce over the last axis, folded from -∞. -/
private theorem v1_ix (x : (⟨S8x2048x512, .f32⟩ : BufTy).Contents (Elt Ideal)) (b : Fin 8) (i : Fin 2048) :
    val_main_v1 (F := Ideal) x (ix2 b i) = rowMax (gram (sel x b) (sel x b) i) := by
  unfold val_main_v1
  have h : S8x2048x2048.Reduces [2] S8x2048 := by decide
  rw [Host.reduce_eq_fold_single FloatOps.maximumf _ _ Gen.reducesTo_S8x2048x2048_S8x2048_d2 h Gen.h_S_ (ix2 b i)]
  have hf : (val_main_v0 (F := Ideal) x ∘ h.lift (ix2 b i)) = gram (sel x b) (sel x b) i := by
    funext k
    have hk : h.lift (ix2 b i) k = ix3 b i k :=
      funext fun a => Fin.ext (by match a with | ⟨0, _⟩ => rfl | ⟨1, _⟩ => rfl | ⟨2, _⟩ => rfl)
    show val_main_v0 (F := Ideal) x (h.lift (ix2 b i) k) = _
    rw [hk]
    exact v0_ix x b i k
  rw [hf]
  rw [val_main_cst_apply, Ideal.ofBits_def, ofBits_negInf]
  rfl

/-- The maximum of -∞ with the row maximum is the row maximum. -/
private theorem v3_ix (x : (⟨S8x2048x512, .f32⟩ : BufTy).Contents (Elt Ideal)) (b : Fin 8) (i : Fin 2048) :
    val_main_v3 (F := Ideal) x (ix2 b i) = rowMax (gram (sel x b) (sel x b) i) := by
  rw [val_main_v3_apply, val_main_v2_apply, val_main_cst_0_apply, Ideal.ofBits_def, ofBits_negInf, v1_ix,
    Ideal.maximumf_def]
  exact max_eq_right bot_le

/-- The shifted exponential of a Gram row. -/
private theorem v7_ix (x : (⟨S8x2048x512, .f32⟩ : BufTy).Contents (Elt Ideal)) (b : Fin 8) (i j : Fin 2048) :
    val_main_v7 (F := Ideal) x (ix3 b i j)
      = Ideal.exp (gram (sel x b) (sel x b) i j - rowMax (gram (sel x b) (sel x b) i)) := by
  have h5 : idx_main_v5 (ix3 b i j) = ix3 b i (0 : Fin 1) :=
    funext fun a => Fin.ext (by match a with | ⟨0, _⟩ => rfl | ⟨1, _⟩ => rfl | ⟨2, _⟩ => rfl)
  have h4 : idx_main_v4 (ix3 b i (0 : Fin 1)) = ix2 b i :=
    funext fun a => Fin.ext (by match a with | ⟨0, _⟩ => rfl | ⟨1, _⟩ => rfl)
  rw [val_main_v7_apply, Ideal.hostUnary_exp_def, val_main_v6_apply, Ideal.subf_def, val_main_v5_apply, h5,
    val_main_v4_apply, h4, v3_ix, v0_ix]

/-- The row sum of the shifted exponentials. -/
private theorem v8_ix (x : (⟨S8x2048x512, .f32⟩ : BufTy).Contents (Elt Ideal)) (b : Fin 8) (i : Fin 2048) :
    val_main_v8 (F := Ideal) x (ix2 b i)
      = ∑ c : Fin 2048, Ideal.exp (gram (sel x b) (sel x b) i c - rowMax (gram (sel x b) (sel x b) i)) := by
  rw [val_main_v8_apply, val_main_cst_1_apply, Ideal.ofBits_def, Ideal.ofBits_zero_f32, zero_add]
  refine Finset.sum_congr rfl fun k _ => ?_
  have h8 : idx_main_v8 (ix2 b i) k = ix3 b i k :=
    funext fun a => Fin.ext (by match a with | ⟨0, _⟩ => rfl | ⟨1, _⟩ => rfl | ⟨2, _⟩ => rfl)
  rw [h8, v7_ix]

/-- The first softmax stage, read at coordinates, is the row softmax of x xᵀ. -/
private theorem v11_ix (x : (⟨S8x2048x512, .f32⟩ : BufTy).Contents (Elt Ideal)) (b : Fin 8) (i j : Fin 2048) :
    val_main_v11 (F := Ideal) x (ix3 b i j) = Asm (sel x b) i j := by
  have h10 : idx_main_v10 (ix3 b i j) = ix3 b i (0 : Fin 1) :=
    funext fun a => Fin.ext (by match a with | ⟨0, _⟩ => rfl | ⟨1, _⟩ => rfl | ⟨2, _⟩ => rfl)
  have h9 : idx_main_v9 (ix3 b i (0 : Fin 1)) = ix2 b i :=
    funext fun a => Fin.ext (by match a with | ⟨0, _⟩ => rfl | ⟨1, _⟩ => rfl)
  rw [val_main_v11_apply, Ideal.hostDivf_def, val_main_v10_apply, h10, val_main_v9_apply, h9, v8_ix, v7_ix]
  rfl

/-- The second softmax chain is the first one's, applied to the other argument. -/
private theorem v23_eq (x : (⟨S8x2048x512, .f32⟩ : BufTy).Contents (Elt Ideal)) :
    val_main_v23 (F := Ideal) x = val_main_v11 (F := Ideal) x := rfl

/-- The mixed product x1 x2ᵀ, read at coordinates. -/
private theorem v24_ix (x0 x1 : (⟨S8x2048x512, .f32⟩ : BufTy).Contents (Elt Ideal)) (b : Fin 8) (j k : Fin 2048) :
    val_main_v24 (F := Ideal) x0 x1 (ix3 b j k) = gram (sel x0 b) (sel x1 b) j k := by
  rw [val_main_v24_apply]
  refine Finset.sum_congr rfl fun d _ => ?_
  have hl : lidx_main_v24 (ix3 b j k) d = ix3 b j d :=
    funext fun a => Fin.ext (by match a with | ⟨0, _⟩ => rfl | ⟨1, _⟩ => rfl | ⟨2, _⟩ => rfl)
  have hr : ridx_main_v24 (ix3 b j k) d = ix3 b k d :=
    funext fun a => Fin.ext (by match a with | ⟨0, _⟩ => rfl | ⟨1, _⟩ => rfl | ⟨2, _⟩ => rfl)
  rw [hl, hr]
  rfl

/-- The first contraction: (x1 x2ᵀ)ᵀ against A(x1). -/
private theorem v25_ix (x0 x1 : (⟨S8x2048x512, .f32⟩ : BufTy).Contents (Elt Ideal)) (b : Fin 8) (k i : Fin 2048) :
    val_main_v25 (F := Ideal) x0 x1 (ix3 b k i)
      = ∑ j : Fin 2048, gram (sel x0 b) (sel x1 b) j k * Asm (sel x0 b) i j := by
  rw [val_main_v25_apply]
  refine Finset.sum_congr rfl fun j _ => ?_
  have hl : lidx_main_v25 (ix3 b k i) j = ix3 b j k :=
    funext fun a => Fin.ext (by match a with | ⟨0, _⟩ => rfl | ⟨1, _⟩ => rfl | ⟨2, _⟩ => rfl)
  have hr : ridx_main_v25 (ix3 b k i) j = ix3 b i j :=
    funext fun a => Fin.ext (by match a with | ⟨0, _⟩ => rfl | ⟨1, _⟩ => rfl | ⟨2, _⟩ => rfl)
  rw [hl, hr, v24_ix, v11_ix]

/-- The reference's last stage is `GRef` of the two argument arrays. -/
theorem val_eq_GRef (a0 a1 : (⟨S8x2048x512, .f32⟩ : BufTy).Contents (Elt Ideal)) :
    val_main_v26 (F := Ideal) a0 a1 = GRef a0 a1 := by
  funext y
  obtain ⟨b, i, l, rfl⟩ : ∃ b i l, y = ix3 b i l := ⟨y 0, y 1, y 2, eq_ix3 y⟩
  rw [val_main_v26_apply]
  show _ = OutRef (sel a0 b) (sel a1 b) i l
  unfold OutRef
  refine Finset.sum_congr rfl fun k _ => ?_
  have hl : lidx_main_v26 (ix3 b i l) k = ix3 b k i :=
    funext fun a => Fin.ext (by match a with | ⟨0, _⟩ => rfl | ⟨1, _⟩ => rfl | ⟨2, _⟩ => rfl)
  have hr : ridx_main_v26 (ix3 b i l) k = ix3 b l k :=
    funext fun a => Fin.ext (by match a with | ⟨0, _⟩ => rfl | ⟨1, _⟩ => rfl | ⟨2, _⟩ => rfl)
  rw [hl, hr, v25_ix, v23_eq, v11_ix]

end Bilinear.Ref

end
-- ==== Proof.PayA.lean ====
/-
  The softmax bands of the kernel's first-point precompute, and the two format casts, read at an index.

  At the first row-block of a batch the kernel keeps x1 and x2 (cast, which changes nothing on the extended reals) and fills
  A(x2) band by band: band c is the row softmax of rows [256 c, 256 c + 256) of x2 x2ᵀ.
-/
import proofs.«400291_j1580547969010_3_alg».proof.Proof.Gen.KernelIdeal.Skeleton
import proofs.«400291_j1580547969010_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Bilinear.Pay

open Idealize.ShloMosaic Idealize.ShloMosaic.ValueIdx Cert.KernelIdeal Cert.KernelIdeal.Gen Bilinear

/-- The cast of the x1 block keeps every entry. -/
theorem pay3_apply (x : Vec Ideal S1x2048x512 .f32) (r : Fin 2048) (d : Fin 512) :
    k0_pay3 (F := Ideal) x (ix2 r d) = x (ix3 0 r d) := by
  unfold k0_pay3
  rw [shapeCast_self]
  exact shapeCast_1ab_ab_apply x shapeCasts_S1x2048x512_S2048x512 r d

/-- The cast of the x2 block keeps every entry. -/
theorem pay4_apply (x : Vec Ideal S1x2048x512 .f32) (r : Fin 2048) (d : Fin 512) :
    k0_pay4 (F := Ideal) x (ix2 r d) = x (ix3 0 r d) := by
  unfold k0_pay4
  rw [shapeCast_self]
  exact shapeCast_1ab_ab_apply x shapeCasts_S1x2048x512_S2048x512 r d

/-! ### The product of a band of rows with every row

The dot's operand indices at an output index and a contraction index, one axis at a time. -/

private abbrev D := dot_S256x512_S2048x512_S256x2048_1_1_0_0_n_n

private theorem dotL0 (i : S256x2048.Idx) (q : D.contr.Idx) : (D.lhsIdx i q 0).val = (i 0).val := by
  unfold DotDims.lhsIdx
  rw [dif_neg (show ¬(0 : Fin S256x512.rank) ∈ D.lhsBatch by decide), dif_pos (show (0 : Fin S256x512.rank) ∈ D.lhsNonContracting by decide)]
  rfl
private theorem dotL1 (i : S256x2048.Idx) (q : D.contr.Idx) : (D.lhsIdx i q 1).val = (q ⟨0, by decide⟩).val :=
  D.lhsIdx_val_of_single rfl i q
private theorem dotR0 (i : S256x2048.Idx) (q : D.contr.Idx) : (D.rhsIdx i q 0).val = (i 1).val := by
  unfold DotDims.rhsIdx
  rw [dif_neg (show ¬(0 : Fin S2048x512.rank) ∈ D.rhsBatch by decide), dif_pos (show (0 : Fin S2048x512.rank) ∈ D.rhsNonContracting by decide)]
  rfl
private theorem dotR1 (i : S256x2048.Idx) (q : D.contr.Idx) : (D.rhsIdx i q 1).val = (q ⟨0, by decide⟩).val :=
  D.rhsIdx_val_of_single rfl i q

/-- Rows [o, o + 256) of the matrix times every row of it. -/
def gramB {F : FTy → Type} [FloatOps F] (o : Nat) (hs : S2048x512.Slices ![o, 0] S256x512) (v : Vec F S2048x512 .bf16) :
    FVec F S256x2048 .f32 :=
  have w : FVec F S256x512 .bf16 := extractStridedSlice S256x512 ![o, 0] v hs
  have cst : FVec F S256x2048 .f32 := constant S256x2048 .f32 0x00000000#32
  matmul D none w v cst

theorem gramB_apply (o : Nat) (hs : S2048x512.Slices ![o, 0] S256x512) (v : Vec Ideal S2048x512 .bf16)
    (x2 : Fin 2048 → Fin 512 → EReal) (h36 : ∀ r d, v (ix2 r d) = x2 r d) (p : Fin 256) (k : Fin 2048)
    (r : Fin 2048) (hr : r.val = o + p.val) :
    gramB (F := Ideal) o hs v (ix2 p k) = gram x2 x2 r k := by
  unfold gramB gram
  simp only [matmul]
  rw [Ideal.matmul_constant_zero_apply, ← Equiv.sum_comp (contrEquiv1 D 512 rfl rfl).symm]
  refine Finset.sum_congr rfl fun c _ => ?_
  have hc := contrEquiv1_symm_val D 512 rfl rfl c
  have el : D.lhsIdx (ix2 p k) ((contrEquiv1 D 512 rfl rfl).symm c) = ix2 p c := funext fun a => Fin.ext (by
    match a with
    | ⟨0, _⟩ => exact dotL0 _ _
    | ⟨1, _⟩ => exact (dotL1 _ _).trans hc)
  have er : D.rhsIdx (ix2 p k) ((contrEquiv1 D 512 rfl rfl).symm c) = ix2 k c := funext fun a => Fin.ext (by
    match a with
    | ⟨0, _⟩ => exact dotR0 _ _
    | ⟨1, _⟩ => exact (dotR1 _ _).trans hc)
  rw [el, er, slice2_axis0_apply o v hs p c r hr, h36, h36]

/-! ### The keep-dims layout: a [256] vector as a [256, 1] column, and the column spread over [256, 2048] -/

/-- A `[256]` vector cast to `[256, 1]` reads, at `(p, u)`, the vector at `p`. -/
theorem shapeCast_a_a1_apply {α : Type} (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A `[256, 1]` column broadcast to `[256, 2048]` reads, at `(p, k)`, the column at `p`. -/
theorem broadcastTo_a1_ab_apply {α : Type} (x : S256x1.Idx → α) (h : S256x1.Broadcasts S256x2048) (p : Fin 256) (k : Fin 2048) :
    broadcastTo S256x2048 x h (ix2 p k) = x (ix2 p (0 : Fin 1)) := by
  refine broadcastTo_apply x h (ix2 p k) (ix2 p (0 : Fin 1)) fun ax => ?_
  match ax with
  | ⟨0, _⟩ => rfl
  | ⟨1, _⟩ => rfl

/-! ### The pieces of the row softmax of a [256, 2048] block -/

/-- The row maxima, as a column. -/
def maxB {F : FTy → Type} [FloatOps F] (m : FVec F S256x2048 .f32) : FVec F S256x1 .f32 :=
  shapeCast S256x1 (multiReduction .maximumf [1] S256 m 0xFF800000#32 reduces_S256x2048_S256 (.inl rfl) rfl) shapeCasts_S256_S256x1

/-- The shifted exponentials. -/
def expB {F : FTy → Type} [FloatOps F] (m : FVec F S256x2048 .f32) (mx : FVec F S256x1 .f32) : FVec F S256x2048 .f32 :=
  have b : FVec F S256x2048 .f32 := broadcastTo S256x2048 mx broadcasts_S256x1_S256x2048
  have d : FVec F S256x2048 .f32 := subf m b
  exp d

/-- The row sums, as a column. -/
def sumB {F : FTy → Type} [FloatOps F] (e : FVec F S256x2048 .f32) : FVec F S256x1 .f32 :=
  shapeCast S256x1 (multiReduction .add [1] S256 e 0x00000000#32 reduces_S256x2048_S256 (.inl rfl) rfl) shapeCasts_S256_S256x1

/-- The quotients, cast to the stored format. -/
def outB {F : FTy → Type} [FloatOps F] (e : FVec F S256x2048 .f32) (s : FVec F S256x1 .f32) : FVec F S256x2048 .bf16 :=
  have b : FVec F S256x2048 .f32 := broadcastTo S256x2048 s broadcasts_S256x1_S256x2048
  have q : FVec F S256x2048 .f32 := divf e b
  have t : FVec F S256x2048 .bf16 := truncf .bf16 q bitsLt_bf16_f32
  shapeCast S256x2048 t shapeCasts_S256x2048_S256x2048

theorem negInf_f32 : Ideal.ofBits .f32 0xFF800000#32 = (⊥ : EReal) := by simp [Ideal.ofBits, Ideal.ieee]

theorem lift_ix1 (p : Fin 256) (k : Fin 2048) : reduces_S256x2048_S256.lift (ix1 p) k = ix2 p k :=
  funext fun a => Fin.ext (by match a with | ⟨0, _⟩ => rfl | ⟨1, _⟩ => rfl)

theorem maxB_apply (m : FVec Ideal S256x2048 .f32) (p : Fin 256) (u : Fin 1) :
    maxB (F := Ideal) m (ix2 p u) = rowMax (fun k : Fin 2048 => m (ix2 p k)) := by
  unfold maxB rowMax
  rw [shapeCast_a_a1_apply]
  refine (Ideal.multiReduction_maximumf_single m _ reduces_S256x2048_S256 (.inl rfl) rfl (ix1 p)).trans ?_
  show (Finset.univ : Finset (Fin 2048)).fold max (Ideal.ofBits .f32 0xFF800000#32) (m ∘ reduces_S256x2048_S256.lift (ix1 p)) = _
  have hf : (m ∘ reduces_S256x2048_S256.lift (ix1 p)) = fun k : Fin 2048 => m (ix2 p k) :=
    funext fun k => congrArg m (lift_ix1 p k)
  rw [negInf_f32, hf]
  rfl

theorem sumB_apply (e : FVec Ideal S256x2048 .f32) (p : Fin 256) (u : Fin 1) :
    sumB (F := Ideal) e (ix2 p u) = ∑ k : Fin 2048, e (ix2 p k) := by
  unfold sumB
  rw [shapeCast_a_a1_apply]
  refine (Ideal.multiReduction_add_single e _ reduces_S256x2048_S256 (.inl rfl) rfl (ix1 p)).trans ?_
  show ∑ k : Fin 2048, e (reduces_S256x2048_S256.lift (ix1 p) k) = _
  exact Finset.sum_congr rfl fun k _ => congrArg e (lift_ix1 p k)

theorem expB_apply (m : FVec Ideal S256x2048 .f32) (mx : FVec Ideal S256x1 .f32) (p : Fin 256) (k : Fin 2048) :
    expB (F := Ideal) m mx (ix2 p k) = Ideal.exp (m (ix2 p k) - mx (ix2 p (0 : Fin 1))) := by
  unfold expB
  show Ideal.exp (m (ix2 p k) - broadcastTo S256x2048 mx broadcasts_S256x1_S256x2048 (ix2 p k)) = _
  rw [broadcastTo_a1_ab_apply]

theorem outB_apply (e : FVec Ideal S256x2048 .f32) (s : FVec Ideal S256x1 .f32) (p : Fin 256) (k : Fin 2048) :
    outB (F := Ideal) e s (ix2 p k) = Ideal.div (e (ix2 p k)) (s (ix2 p (0 : Fin 1))) := by
  unfold outB
  rw [shapeCast_self]
  show Ideal.div (e (ix2 p k)) (broadcastTo S256x2048 s broadcasts_S256x1_S256x2048 (ix2 p k)) = _
  rw [broadcastTo_a1_ab_apply]

/-- The row softmax of a block whose entries are known. -/
theorem softB_apply (m : FVec Ideal S256x2048 .f32) (G : Fin 256 → Fin 2048 → EReal) (hm : ∀ p k, m (ix2 p k) = G p k)
    (p : Fin 256) (k : Fin 2048) :
    outB (F := Ideal) (expB m (maxB m)) (sumB (expB m (maxB m))) (ix2 p k) = smx (G p) k := by
  have hmax : maxB (F := Ideal) m (ix2 p (0 : Fin 1)) = rowMax (G p) := by
    rw [maxB_apply]; exact congrArg rowMax (funext fun c => hm p c)
  rw [outB_apply, sumB_apply, expB_apply, hmax, hm]
  unfold smx
  refine congrArg _ (Finset.sum_congr rfl fun c _ => ?_)
  rw [expB_apply, hmax, hm]

/-! ### One band -/

/-- The band computation at row offset `o`: the row softmax of rows [o, o + 256) of the matrix times every row of it,
cast to the stored format. -/
def bandB {F : FTy → Type} [FloatOps F] (o : Nat) (hs : S2048x512.Slices ![o, 0] S256x512) (v : Vec F S2048x512 .bf16) :
    FVec F S256x2048 .bf16 :=
  outB (expB (gramB o hs v) (maxB (gramB o hs v))) (sumB (expB (gramB o hs v) (maxB (gramB o hs v))))

/-- At `(p, k)` the band at offset `o` is the softmax entry `A(x2) (o + p) k`. -/
theorem bandB_apply (o : Nat) (hs : S2048x512.Slices ![o, 0] S256x512) (v : Vec Ideal S2048x512 .bf16)
    (x2 : Fin 2048 → Fin 512 → EReal) (h36 : ∀ r d, v (ix2 r d) = x2 r d) (p : Fin 256) (k : Fin 2048)
    (r : Fin 2048) (hr : r.val = o + p.val) :
    bandB (F := Ideal) o hs v (ix2 p k) = Asm x2 r k := by
  have hb : o + 256 ≤ 2048 := hs.2 0
  have hrow : r = ⟨o + p.val, by have := p.isLt; omega⟩ := Fin.ext hr
  unfold bandB Asm
  rw [hrow]
  exact softB_apply (gramB (F := Ideal) o hs v)
    (fun p' k' => gram x2 x2 ⟨o + p'.val, by have := p'.isLt; omega⟩ k')
    (fun p' k' => gramB_apply o hs v x2 h36 p' k' _ rfl) p k

/-! ### The payloads are the band computation at the eight offsets -/

theorem pay5_eq (v : Vec Ideal S2048x512 .bf16) :
    k0_pay5 (F := Ideal) v = bandB 0 slices_S2048x512_o0_0_S256x512 v := rfl
theorem pay8_eq (v : Vec Ideal S2048x512 .bf16) :
    k0_pay8 (F := Ideal) (k0_pay6 v) (k0_pay7 v) = bandB 256 slices_S2048x512_o256_0_S256x512 v := rfl
theorem pay9_eq (v : Vec Ideal S2048x512 .bf16) :
    k0_pay9 (F := Ideal) v = bandB 512 slices_S2048x512_o512_0_S256x512 v := rfl
theorem pay10_eq (v : Vec Ideal S2048x512 .bf16) :
    k0_pay10 (F := Ideal) v = bandB 768 slices_S2048x512_o768_0_S256x512 v := rfl
theorem pay12_eq (v : Vec Ideal S2048x512 .bf16) :
    k0_pay12 (F := Ideal) (k0_pay11 v) = bandB 1024 slices_S2048x512_o1024_0_S256x512 v := rfl
theorem pay13_eq (v : Vec Ideal S2048x512 .bf16) :
    k0_pay13 (F := Ideal) v = bandB 1280 slices_S2048x512_o1280_0_S256x512 v := rfl
theorem pay14_eq (v : Vec Ideal S2048x512 .bf16) :
    k0_pay14 (F := Ideal) v = bandB 1536 slices_S2048x512_o1536_0_S256x512 v := rfl
theorem pay17_eq (v : Vec Ideal S2048x512 .bf16) :
    k0_pay17 (F := Ideal) (k0_pay15 v) (k0_pay16 v) = bandB 1792 slices_S2048x512_o1792_0_S256x512 v := rfl

section A2
variable (v36 : Vec Ideal S2048x512 .bf16) (x2 : Fin 2048 → Fin 512 → EReal)
  (h36 : ∀ r d, v36 (ix2 r d) = x2 r d) (p : Fin 256) (k : Fin 2048)
include h36

/-- Band 0 of A(x2). -/
theorem a2band0 : k0_pay5 (F := Ideal) v36 (ix2 p k) = Asm x2 (band 0 (by decide) p) k := by
  rw [pay5_eq]
  exact bandB_apply _ _ v36 x2 h36 p k _ (by show 256 * 0 + p.val = 0 + p.val; omega)

/-- Band 1 of A(x2). -/
theorem a2band1 : k0_pay8 (F := Ideal) (k0_pay6 v36) (k0_pay7 v36) (ix2 p k) = Asm x2 (band 1 (by decide) p) k := by
  rw [pay8_eq]
  exact bandB_apply _ _ v36 x2 h36 p k _ (by show 256 * 1 + p.val = 256 + p.val; omega)

/-- Band 2 of A(x2). -/
theorem a2band2 : k0_pay9 (F := Ideal) v36 (ix2 p k) = Asm x2 (band 2 (by decide) p) k := by
  rw [pay9_eq]
  exact bandB_apply _ _ v36 x2 h36 p k _ (by show 256 * 2 + p.val = 512 + p.val; omega)

/-- Band 3 of A(x2). -/
theorem a2band3 : k0_pay10 (F := Ideal) v36 (ix2 p k) = Asm x2 (band 3 (by decide) p) k := by
  rw [pay10_eq]
  exact bandB_apply _ _ v36 x2 h36 p k _ (by show 256 * 3 + p.val = 768 + p.val; omega)

/-- Band 4 of A(x2). -/
theorem a2band4 : k0_pay12 (F := Ideal) (k0_pay11 v36) (ix2 p k) = Asm x2 (band 4 (by decide) p) k := by
  rw [pay12_eq]
  exact bandB_apply _ _ v36 x2 h36 p k _ (by show 256 * 4 + p.val = 1024 + p.val; omega)

/-- Band 5 of A(x2). -/
theorem a2band5 : k0_pay13 (F := Ideal) v36 (ix2 p k) = Asm x2 (band 5 (by decide) p) k := by
  rw [pay13_eq]
  exact bandB_apply _ _ v36 x2 h36 p k _ (by show 256 * 5 + p.val = 1280 + p.val; omega)

/-- Band 6 of A(x2). -/
theorem a2band6 : k0_pay14 (F := Ideal) v36 (ix2 p k) = Asm x2 (band 6 (by decide) p) k := by
  rw [pay14_eq]
  exact bandB_apply _ _ v36 x2 h36 p k _ (by show 256 * 6 + p.val = 1536 + p.val; omega)

/-- Band 7 of A(x2). -/
theorem a2band7 : k0_pay17 (F := Ideal) (k0_pay15 v36) (k0_pay16 v36) (ix2 p k) = Asm x2 (band 7 (by decide) p) k := by
  rw [pay17_eq]
  exact bandB_apply _ _ v36 x2 h36 p k _ (by show 256 * 7 + p.val = 1792 + p.val; omega)

end A2

end Bilinear.Pay

end
-- ==== Proof.PayT.lean ====
/-
  The bands of T = (x1 x2ᵀ) A(x2)ᵀ that the kernel's first-point precompute stores, and the output block, read at an index.

  Band c of T: rows [256 c, 256 c + 256) of x1 x2ᵀ, contracted against the rows of A(x2).
  The output block at a row-block: the row softmax of (its rows of x1) x1ᵀ, times T.
-/
import proofs.«400291_j1580547969010_3_alg».proof.Proof.Gen.KernelIdeal.Skeleton
import proofs.«400291_j1580547969010_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Bilinear.Pay

open Idealize.ShloMosaic Idealize.ShloMosaic.ValueIdx Cert.KernelIdeal Cert.KernelIdeal.Gen Bilinear

/-! ## The three products read at an index

Each of the kernel's three dimension records contracts one axis of each operand; at an output index the operand
indices are the output's two coordinates and the contraction coordinate, axis by axis. -/

section DotAxes

private theorem lhs_mm11s_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
private theorem lhs_mm11s_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
private theorem rhs_mm11s_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
private theorem rhs_mm11s_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- Rows of a [256, 512] block against rows of a [2048, 512] matrix, into zero: the row products. -/
private theorem mm11s_apply (a : FVec Ideal S256x512 .bf16) (b : FVec Ideal S2048x512 .bf16) (p : Fin 256) (k : Fin 2048) :
    matmul dot_S256x512_S2048x512_S256x2048_1_1_0_0_n_n none a b (constant (F := Ideal) S256x2048 .f32 0x00000000#32) (ix2 p k)
      = ∑ d : Fin 512, a (ix2 p d) * b (ix2 k d) := by
  refine (Ideal.matmul_constant_zero_apply _ none a b (ix2 p k)).trans ?_
  rw [← Equiv.sum_comp (ValueIdx.contrEquiv1 dot_S256x512_S2048x512_S256x2048_1_1_0_0_n_n 512 rfl rfl).symm]
  refine Finset.sum_congr rfl fun d _ => ?_
  have hd := ValueIdx.contrEquiv1_symm_val dot_S256x512_S2048x512_S256x2048_1_1_0_0_n_n 512 rfl rfl d
  have el : dot_S256x512_S2048x512_S256x2048_1_1_0_0_n_n.lhsIdx (ix2 p k) ((ValueIdx.contrEquiv1 dot_S256x512_S2048x512_S256x2048_1_1_0_0_n_n 512 rfl rfl).symm d) = ix2 p d := funext fun a => Fin.ext (by
    match a with
    | ⟨0, _⟩ => exact lhs_mm11s_0 _ _
    | ⟨1, _⟩ => exact (lhs_mm11s_1 _ _).trans hd)
  have er : dot_S256x512_S2048x512_S256x2048_1_1_0_0_n_n.rhsIdx (ix2 p k) ((ValueIdx.contrEquiv1 dot_S256x512_S2048x512_S256x2048_1_1_0_0_n_n 512 rfl rfl).symm d) = ix2 k d := funext fun a => Fin.ext (by
    match a with
    | ⟨0, _⟩ => exact rhs_mm11s_0 _ _
    | ⟨1, _⟩ => exact (rhs_mm11s_1 _ _).trans hd)
  rw [el, er]

private theorem lhs_mm11w_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
private theorem lhs_mm11w_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
private theorem rhs_mm11w_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
private theorem rhs_mm11w_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Rows of a [256, 2048] block against rows of a [2048, 2048] matrix, into zero. -/
private theorem mm11w_apply (a : FVec Ideal S256x2048 .bf16) (b : FVec Ideal S2048x2048 .bf16) (p : Fin 256) (k : Fin 2048) :
    matmul dot_S256x2048_S2048x2048_S256x2048_1_1_0_0_n_n none a b (constant (F := Ideal) S256x2048 .f32 0x00000000#32) (ix2 p k)
      = ∑ d : Fin 2048, a (ix2 p d) * b (ix2 k d) := by
  refine (Ideal.matmul_constant_zero_apply _ none a b (ix2 p k)).trans ?_
  rw [← Equiv.sum_comp (ValueIdx.contrEquiv1 dot_S256x2048_S2048x2048_S256x2048_1_1_0_0_n_n 2048 rfl rfl).symm]
  refine Finset.sum_congr rfl fun d _ => ?_
  have hd := ValueIdx.contrEquiv1_symm_val dot_S256x2048_S2048x2048_S256x2048_1_1_0_0_n_n 2048 rfl rfl d
  have el : dot_S256x2048_S2048x2048_S256x2048_1_1_0_0_n_n.lhsIdx (ix2 p k) ((ValueIdx.contrEquiv1 dot_S256x2048_S2048x2048_S256x2048_1_1_0_0_n_n 2048 rfl rfl).symm d) = ix2 p d := funext fun a => Fin.ext (by
    match a with
    | ⟨0, _⟩ => exact lhs_mm11w_0 _ _
    | ⟨1, _⟩ => exact (lhs_mm11w_1 _ _).trans hd)
  have er : dot_S256x2048_S2048x2048_S256x2048_1_1_0_0_n_n.rhsIdx (ix2 p k) ((ValueIdx.contrEquiv1 dot_S256x2048_S2048x2048_S256x2048_1_1_0_0_n_n 2048 rfl rfl).symm d) = ix2 k d := funext fun a => Fin.ext (by
    match a with
    | ⟨0, _⟩ => exact rhs_mm11w_0 _ _
    | ⟨1, _⟩ => exact (rhs_mm11w_1 _ _).trans hd)
  rw [el, er]

private theorem lhs_mm10w_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
private theorem lhs_mm10w_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
private theorem rhs_mm10w_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
private theorem rhs_mm10w_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- Rows of a [256, 2048] block against columns of a [2048, 2048] matrix, into zero: the plain matrix product. -/
private theorem mm10w_apply (a : FVec Ideal S256x2048 .bf16) (b : FVec Ideal S2048x2048 .bf16) (p : Fin 256) (k : Fin 2048) :
    matmul dot_S256x2048_S2048x2048_S256x2048_1_0_0_1_n_n none a b (constant (F := Ideal) S256x2048 .f32 0x00000000#32) (ix2 p k)
      = ∑ d : Fin 2048, a (ix2 p d) * b (ix2 d k) := by
  refine (Ideal.matmul_constant_zero_apply _ none a b (ix2 p k)).trans ?_
  rw [← Equiv.sum_comp (ValueIdx.contrEquiv1 dot_S256x2048_S2048x2048_S256x2048_1_0_0_1_n_n 2048 rfl rfl).symm]
  refine Finset.sum_congr rfl fun d _ => ?_
  have hd := ValueIdx.contrEquiv1_symm_val dot_S256x2048_S2048x2048_S256x2048_1_0_0_1_n_n 2048 rfl rfl d
  have el : dot_S256x2048_S2048x2048_S256x2048_1_0_0_1_n_n.lhsIdx (ix2 p k) ((ValueIdx.contrEquiv1 dot_S256x2048_S2048x2048_S256x2048_1_0_0_1_n_n 2048 rfl rfl).symm d) = ix2 p d := funext fun a => Fin.ext (by
    match a with
    | ⟨0, _⟩ => exact lhs_mm10w_0 _ _
    | ⟨1, _⟩ => exact (lhs_mm10w_1 _ _).trans hd)
  have er : dot_S256x2048_S2048x2048_S256x2048_1_0_0_1_n_n.rhsIdx (ix2 p k) ((ValueIdx.contrEquiv1 dot_S256x2048_S2048x2048_S256x2048_1_0_0_1_n_n 2048 rfl rfl).symm d) = ix2 d k := funext fun a => Fin.ext (by
    match a with
    | ⟨0, _⟩ => exact (rhs_mm10w_0 _ _).trans hd
    | ⟨1, _⟩ => exact rhs_mm10w_1 _ _)
  rw [el, er]

end DotAxes

/-! ## A band of T -/

section Band

/-- One band of T as the kernel computes it: 256 rows of `v157` from the offset's row, against every row of `v36`,
    then against every row of `v158`; the two narrowings are the identity on the extended reals. -/
private def tbandAt (off : Fin S2048x512.rank → ℕ) (hs : S2048x512.Slices off S256x512)
    (v36 v157 : FVec Ideal S2048x512 .bf16) (v158 : FVec Ideal S2048x2048 .bf16) : FVec Ideal S256x2048 .bf16 :=
  truncf .bf16
    (matmul (φ₁ := .bf16) (φ₂ := .bf16) dot_S256x2048_S2048x2048_S256x2048_1_1_0_0_n_n none
      (truncf .bf16
        (matmul (φ₁ := .bf16) (φ₂ := .bf16) dot_S256x512_S2048x512_S256x2048_1_1_0_0_n_n none
          (extractStridedSlice S256x512 off v157 hs) v36 (constant S256x2048 .f32 0x00000000#32))
        Facts₀.bitsLt_bf16_f32)
      v158 (constant S256x2048 .f32 0x00000000#32))
    Facts₀.bitsLt_bf16_f32

/-- The band from row `o` at (p, l): row `o + p` of x1 x2ᵀ against row `l` of a2. -/
private theorem tbandAt_apply (o : ℕ) (ho : o + 256 ≤ 2048) (hs : S2048x512.Slices ![o, 0] S256x512)
    (v36 v157 : FVec Ideal S2048x512 .bf16) (v158 : FVec Ideal S2048x2048 .bf16)
    (x1 x2 : Fin 2048 → Fin 512 → EReal) (a2 : Fin 2048 → Fin 2048 → EReal)
    (h36 : ∀ r d, v36 (ix2 r d) = x2 r d) (h157 : ∀ r d, v157 (ix2 r d) = x1 r d)
    (h158 : ∀ l k, v158 (ix2 l k) = a2 l k) (p : Fin 256) (l : Fin 2048) :
    tbandAt ![o, 0] hs v36 v157 v158 (ix2 p l)
      = ∑ k : Fin 2048, gram x1 x2 (⟨o + p.val, by have := p.isLt; omega⟩ : Fin 2048) k * a2 l k := by
  unfold tbandAt
  rw [truncf_apply]
  refine (mm11w_apply _ _ p l).trans ?_
  refine Finset.sum_congr rfl fun k _ => ?_
  rw [truncf_apply, h158]
  refine congrArg (· * a2 l k) ?_
  refine (mm11s_apply _ _ p k).trans ?_
  unfold gram
  refine Finset.sum_congr rfl fun d _ => ?_
  rw [h36]
  refine congrArg (· * x2 k d) ?_
  exact (slice2_axis0_eq o v157 hs p d).trans (h157 _ d)

end Band

section T
variable (v36 v157 : Vec Ideal S2048x512 .bf16) (v158 : Vec Ideal S2048x2048 .bf16)
  (x1 x2 : Fin 2048 → Fin 512 → EReal) (a2 : Fin 2048 → Fin 2048 → EReal)
  (h36 : ∀ r d, v36 (ix2 r d) = x2 r d) (h157 : ∀ r d, v157 (ix2 r d) = x1 r d)
  (h158 : ∀ l k, v158 (ix2 l k) = a2 l k) (p : Fin 256) (l : Fin 2048)
include h36 h157 h158

/-- Band 0 of T. -/
theorem tband0 : k0_pay18 (F := Ideal) v36 v157 v158 (ix2 p l) = ∑ k : Fin 2048, gram x1 x2 (band 0 (by decide) p) k * a2 l k := by
  have e : k0_pay18 (F := Ideal) v36 v157 v158
      = shapeCast S256x2048 (tbandAt ![0, 0] Facts₀.slices_S2048x512_o0_0_S256x512 v36 v157 v158) Facts₀.shapeCasts_S256x2048_S256x2048 := rfl
  rw [e, shapeCast_self]
  exact tbandAt_apply 0 (by decide) _ v36 v157 v158 x1 x2 a2 h36 h157 h158 p l

/-- Band 1 of T. -/
theorem tband1 : k0_pay19 (F := Ideal) v36 v157 v158 (ix2 p l) = ∑ k : Fin 2048, gram x1 x2 (band 1 (by decide) p) k * a2 l k := by
  have e : k0_pay19 (F := Ideal) v36 v157 v158
      = shapeCast S256x2048 (tbandAt ![256, 0] Facts₀.slices_S2048x512_o256_0_S256x512 v36 v157 v158) Facts₀.shapeCasts_S256x2048_S256x2048 := rfl
  rw [e, shapeCast_self]
  exact tbandAt_apply 256 (by decide) _ v36 v157 v158 x1 x2 a2 h36 h157 h158 p l

/-- Band 2 of T. -/
theorem tband2 : k0_pay20 (F := Ideal) v36 v157 v158 (ix2 p l) = ∑ k : Fin 2048, gram x1 x2 (band 2 (by decide) p) k * a2 l k := by
  have e : k0_pay20 (F := Ideal) v36 v157 v158
      = shapeCast S256x2048 (tbandAt ![512, 0] Facts₀.slices_S2048x512_o512_0_S256x512 v36 v157 v158) Facts₀.shapeCasts_S256x2048_S256x2048 := rfl
  rw [e, shapeCast_self]
  exact tbandAt_apply 512 (by decide) _ v36 v157 v158 x1 x2 a2 h36 h157 h158 p l

/-- Band 3 of T. -/
theorem tband3 : k0_pay21 (F := Ideal) v36 v157 v158 (ix2 p l) = ∑ k : Fin 2048, gram x1 x2 (band 3 (by decide) p) k * a2 l k := by
  have e : k0_pay21 (F := Ideal) v36 v157 v158
      = shapeCast S256x2048 (tbandAt ![768, 0] Facts₀.slices_S2048x512_o768_0_S256x512 v36 v157 v158) Facts₀.shapeCasts_S256x2048_S256x2048 := rfl
  rw [e, shapeCast_self]
  exact tbandAt_apply 768 (by decide) _ v36 v157 v158 x1 x2 a2 h36 h157 h158 p l

/-- Band 4 of T. -/
theorem tband4 : k0_pay22 (F := Ideal) v36 v157 v158 (ix2 p l) = ∑ k : Fin 2048, gram x1 x2 (band 4 (by decide) p) k * a2 l k := by
  have e : k0_pay22 (F := Ideal) v36 v157 v158
      = shapeCast S256x2048 (tbandAt ![1024, 0] Facts₀.slices_S2048x512_o1024_0_S256x512 v36 v157 v158) Facts₀.shapeCasts_S256x2048_S256x2048 := rfl
  rw [e, shapeCast_self]
  exact tbandAt_apply 1024 (by decide) _ v36 v157 v158 x1 x2 a2 h36 h157 h158 p l

/-- Band 5 of T. -/
theorem tband5 : k0_pay23 (F := Ideal) v36 v157 v158 (ix2 p l) = ∑ k : Fin 2048, gram x1 x2 (band 5 (by decide) p) k * a2 l k := by
  have e : k0_pay23 (F := Ideal) v36 v157 v158
      = shapeCast S256x2048 (tbandAt ![1280, 0] Facts₀.slices_S2048x512_o1280_0_S256x512 v36 v157 v158) Facts₀.shapeCasts_S256x2048_S256x2048 := rfl
  rw [e, shapeCast_self]
  exact tbandAt_apply 1280 (by decide) _ v36 v157 v158 x1 x2 a2 h36 h157 h158 p l

/-- Band 6 of T. -/
theorem tband6 : k0_pay24 (F := Ideal) v36 v157 v158 (ix2 p l) = ∑ k : Fin 2048, gram x1 x2 (band 6 (by decide) p) k * a2 l k := by
  have e : k0_pay24 (F := Ideal) v36 v157 v158
      = shapeCast S256x2048 (tbandAt ![1536, 0] Facts₀.slices_S2048x512_o1536_0_S256x512 v36 v157 v158) Facts₀.shapeCasts_S256x2048_S256x2048 := rfl
  rw [e, shapeCast_self]
  exact tbandAt_apply 1536 (by decide) _ v36 v157 v158 x1 x2 a2 h36 h157 h158 p l

/-- Band 7 of T. -/
theorem tband7 : k0_pay1 (F := Ideal) (k0_pay25 v36 v157 v158) (ix2 p l) = ∑ k : Fin 2048, gram x1 x2 (band 7 (by decide) p) k * a2 l k := by
  have e : k0_pay1 (F := Ideal) (k0_pay25 v36 v157 v158)
      = shapeCast S256x2048 (tbandAt ![1792, 0] Facts₀.slices_S2048x512_o1792_0_S256x512 v36 v157 v158) Facts₀.shapeCasts_S256x2048_S256x2048 := rfl
  rw [e, shapeCast_self]
  exact tbandAt_apply 1792 (by decide) _ v36 v157 v158 x1 x2 a2 h36 h157 h158 p l

end T

/-! ## The row softmax of a [256, 2048] block -/

section Softmax

/-- The accumulator pattern of the maximum is -∞. -/
private theorem negInf_f32 : Ideal.ofBits .f32 0xFF800000#32 = (⊥ : EReal) := by simp [Ideal.ofBits, Ideal.ieee]

/-- The maximum over the columns, at row `p`: the fold of `max` from -∞ over that row. -/
private theorem rowmax_apply (v : FVec Ideal S256x2048 .f32) (p : Fin 256) :
    multiReduction (F := Ideal) .maximumf [1] S256 v 0xFF800000#32 Facts₀.reduces_S256x2048_S256 (.inl rfl) rfl (ix1 p)
      = rowMax fun k : Fin 2048 => v (ix2 p k) := by
  refine (Ideal.multiReduction_maximumf_single v _ Facts₀.reduces_S256x2048_S256 (.inl rfl) rfl (ix1 p)).trans ?_
  show Finset.fold max (Ideal.ofBits .f32 0xFF800000#32) _ _ = _
  rw [negInf_f32]
  unfold rowMax
  refine congrArg (fun f => Finset.fold max ⊥ f Finset.univ) (funext fun k => ?_)
  exact congrArg v (funext fun a => Fin.ext (by match a with | ⟨0, _⟩ => rfl | ⟨1, _⟩ => rfl))

/-- The sum over the columns, at row `p`. -/
private theorem rowsum_apply (v : FVec Ideal S256x2048 .f32) (p : Fin 256) :
    multiReduction (F := Ideal) .add [1] S256 v 0x00000000#32 Facts₀.reduces_S256x2048_S256 (.inl rfl) rfl (ix1 p)
      = ∑ k : Fin 2048, v (ix2 p k) := by
  refine (Ideal.multiReduction_add_single v _ Facts₀.reduces_S256x2048_S256 (.inl rfl) rfl (ix1 p)).trans ?_
  refine Finset.sum_congr rfl fun k _ => ?_
  exact congrArg v (funext fun a => Fin.ext (by match a with | ⟨0, _⟩ => rfl | ⟨1, _⟩ => rfl))

/-- A per-row value kept as a unit column and spread over the row: at (p, k) it is the value at `p`. -/
private theorem keep_apply (v : FVec Ideal S256 .f32) (p : Fin 256) (k : Fin 2048) :
    broadcastTo S256x2048 (shapeCast S256x1 v Facts₀.shapeCasts_S256_S256x1) Facts₀.broadcasts_S256x1_S256x2048 (ix2 p k)
      = v (ix1 p) := by
  refine (broadcastTo_apply _ Facts₀.broadcasts_S256x1_S256x2048 (ix2 p k) (ix2 p (0 : Fin 1)) fun a => ?_).trans ?_
  · match a with
    | ⟨0, _⟩ => show p.val = if (256 : ℕ) = 1 then 0 else p.val; rw [if_neg (by decide)]
    | ⟨1, _⟩ => show 0 = if (1 : ℕ) = 1 then 0 else k.val; rw [if_pos rfl]
  · refine shapeCast_apply v Facts₀.shapeCasts_S256_S256x1 (ix2 p (0 : Fin 1)) (ix1 p) ?_
    rw [Shape.rowMajor_val_one, Shape.rowMajor_val_two]
    show p.val = p.val * 1 + 0
    omega

/-- The kernel's row softmax of a block, as one term over the block. -/
private def smBlock (s : FVec Ideal S256x2048 .f32) : FVec Ideal S256x2048 .bf16 :=
  truncf .bf16
    (divf
      (exp (subf s (broadcastTo S256x2048 (shapeCast S256x1
        (multiReduction .maximumf [1] S256 s 0xFF800000#32 Facts₀.reduces_S256x2048_S256 (.inl rfl) rfl)
        Facts₀.shapeCasts_S256_S256x1) Facts₀.broadcasts_S256x1_S256x2048)))
      (broadcastTo S256x2048 (shapeCast S256x1
        (multiReduction .add [1] S256
          (exp (subf s (broadcastTo S256x2048 (shapeCast S256x1
            (multiReduction .maximumf [1] S256 s 0xFF800000#32 Facts₀.reduces_S256x2048_S256 (.inl rfl) rfl)
            Facts₀.shapeCasts_S256_S256x1) Facts₀.broadcasts_S256x1_S256x2048)))
          0x00000000#32 Facts₀.reduces_S256x2048_S256 (.inl rfl) rfl)
        Facts₀.shapeCasts_S256_S256x1) Facts₀.broadcasts_S256x1_S256x2048))
    Facts₀.bitsLt_bf16_f32

/-- The shifted exponential at (p, k). -/
private theorem expShift_apply (s : FVec Ideal S256x2048 .f32) (p : Fin 256) (k : Fin 2048) :
    exp (subf s (broadcastTo S256x2048 (shapeCast S256x1
        (multiReduction .maximumf [1] S256 s 0xFF800000#32 Facts₀.reduces_S256x2048_S256 (.inl rfl) rfl)
        Facts₀.shapeCasts_S256_S256x1) Facts₀.broadcasts_S256x1_S256x2048)) (ix2 p k)
      = Ideal.exp (s (ix2 p k) - rowMax fun c : Fin 2048 => s (ix2 p c)) := by
  show Ideal.exp (s (ix2 p k) - broadcastTo S256x2048 (shapeCast S256x1
        (multiReduction (F := Ideal) .maximumf [1] S256 s 0xFF800000#32 Facts₀.reduces_S256x2048_S256 (.inl rfl) rfl)
        Facts₀.shapeCasts_S256_S256x1) Facts₀.broadcasts_S256x1_S256x2048 (ix2 p k)) = _
  rw [keep_apply, rowmax_apply]

/-- The row softmax of a block at (p, k) is the softmax of row `p` at `k`. -/
private theorem smBlock_apply (s : FVec Ideal S256x2048 .f32) (p : Fin 256) (k : Fin 2048) :
    smBlock s (ix2 p k) = smx (fun c : Fin 2048 => s (ix2 p c)) k := by
  unfold smBlock
  rw [truncf_apply, divf_apply, expShift_apply, keep_apply, rowsum_apply]
  unfold smx
  refine congrArg (Ideal.div _) (Finset.sum_congr rfl fun c _ => ?_)
  exact expShift_apply s p c

end Softmax

/-- The output block: row `ρ p` of A(x) against T, where the block's rows of x are the rows `ρ p`. -/
theorem pay2_apply (v6 : Vec Ideal S256x512 .bf16) (v7 : Vec Ideal S2048x512 .bf16) (v19 : Vec Ideal S2048x2048 .bf16)
    (x : Fin 2048 → Fin 512 → EReal) (t : Fin 2048 → Fin 2048 → EReal) (ρ : Fin 256 → Fin 2048)
    (h6 : ∀ p d, v6 (ix2 p d) = x (ρ p) d) (h7 : ∀ r d, v7 (ix2 r d) = x r d) (h19 : ∀ j l, v19 (ix2 j l) = t j l)
    (p : Fin 256) (l : Fin 2048) :
    k0_pay2 (F := Ideal) v6 v7 v19 (ix3 0 p l) = ∑ j : Fin 2048, Asm x (ρ p) j * t j l := by
  have e : k0_pay2 (F := Ideal) v6 v7 v19
      = shapeCast S1x256x2048
          (matmul dot_S256x2048_S2048x2048_S256x2048_1_0_0_1_n_n none
            (smBlock (matmul dot_S256x512_S2048x512_S256x2048_1_1_0_0_n_n none v6 v7 (constant S256x2048 .f32 0x00000000#32)))
            v19 (constant S256x2048 .f32 0x00000000#32))
          Facts₀.shapeCasts_S256x2048_S1x256x2048 := rfl
  rw [e]
  refine (shapeCast_ab_1ab_apply _ Facts₀.shapeCasts_S256x2048_S1x256x2048 0 p l).trans ?_
  refine (mm10w_apply _ _ p l).trans ?_
  refine Finset.sum_congr rfl fun j _ => ?_
  rw [h19, smBlock_apply]
  refine congrArg (· * t j l) ?_
  unfold Asm
  refine congrArg (fun s => smx s j) (funext fun c => ?_)
  refine (mm11s_apply _ _ p c).trans ?_
  unfold gram
  refine Finset.sum_congr rfl fun d _ => ?_
  rw [h6, h7]

end Bilinear.Pay

end
-- ==== Proof.LibReadBackWhole.lean ====
/-
  A load of a whole buffer after a list of stores.

  The stores a run makes into a buffer are kept as a list of pieces (rectangle, payload), the last store first, over
  contents nothing is known of. A load through the whole-shape rectangle at zero offsets then reads the list's canonical
  contents: at each index the payload of the newest piece whose rectangle holds it. (The library states this for ONE
  store through the whole shape; this is the form for any list, which a buffer filled band by band and read back whole
  needs before `View.canon_apply_of_pieces` can read the bands.)
-/
import Idealize.ShloMosaic.Lib.Pipeline.Value

noncomputable section

namespace Idealize.ShloMosaic.View

/-- A load of the whole buffer (zero offsets, however the zeros are spelt) after the stores `L` over unspecified
    contents reads `View.canon L`. -/
theorem readCov_whole_eq_canon {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (L : List (View.Piece Val S e)) :
    v.readCov L (Rect.unit off S.size inb).toLoadRect = View.canon L := by
  subst h
  rw [View.readCov_eq_canon']
  funext j
  show View.canon L ((Rect.whole S).emb j) = _
  rw [Rect.emb_whole_apply]

end Idealize.ShloMosaic.View

end
-- ==== Proof.Pieces.lean ====
/-
  What one run of the kernel body leaves, read at an index.

  At the first row-block of a batch the body keeps x1 and x2, stores A(x2) in eight bands of 256 rows, reads it back
  whole, stores T = (x1 x2ᵀ) A(x2)ᵀ in eight bands and reads that back; every row-block then takes its 256 rows of
  the kept x1, forms their softmax row against all of x1, and multiplies by the kept T. A buffer stored band by band and
  read back whole holds, at row 256 c + q, what band c's store put at its row q; so the kept A(x2) is `Asm` of the x2
  block, the kept T is `Tm` of the two blocks, and the output block is its rows of `Out`. At a later row-block the same
  output computation runs over whatever the two carried buffers hold.
-/
import proofs.«400291_j1580547969010_3_alg».proof.Proof.Gen.KernelIdeal.Frame
import proofs.«400291_j1580547969010_3_alg».proof.Proof.PayA
import proofs.«400291_j1580547969010_3_alg».proof.Proof.PayT
import proofs.«400291_j1580547969010_3_alg».proof.Proof.LibReadBackWhole
import Idealize.ShloMosaic.Lib.Pipeline.Value
import Idealize.ShloMosaic.Lib.ValueIdx

set_option maxRecDepth 16384

noncomputable section

namespace Bilinear.Pieces

open Idealize.ShloMosaic Idealize.ShloMosaic.TcCoe Idealize.ShloMosaic.Tactic Idealize.ShloMosaic.ValueIdx
open Idealize.SL Idealize.SL.Sem
open Cert.KernelIdeal Cert.KernelIdeal.Gen Bilinear Bilinear.Pay

/-- A [1, 2048, 512] block as a matrix. -/
def blk (x : Vec Ideal S1x2048x512 .f32) : Fin 2048 → Fin 512 → EReal := fun r d => x (ix3 0 r d)

/-- The row of the batch's matrix that row `p` of the output block at grid coordinates `i` is computed from. -/
def rowOf (i : grid0.Coords) (p : Fin 256) : Fin 2048 :=
  ⟨256 * (i 1).val + p.val, by have h8 : (i 1).val < 8 := (i 1).isLt; have := p.isLt; omega⟩

theorem hz2 : (![0, 0] : Fin 2 → ℕ) = fun _ => 0 := by funext a; fin_cases a <;> rfl
theorem hz3 : (![0, 0, 0] : Fin 3 → ℕ) = fun _ => 0 := by funext a; fin_cases a <;> rfl

/-! ## Bands stored one after the other, read back -/

/-- The eight bands of A(x2), the last stored first in the list, leave A(x2). -/
theorem canonA2_apply (v36 : Vec Ideal S2048x512 .bf16) (x2 : Fin 2048 → Fin 512 → EReal)
    (h36 : ∀ r d, v36 (ix2 r d) = x2 r d) (l k : Fin 2048) :
    View.canon (Val := Elt Ideal) (s := S2048x2048) (e := .bf16)
      [⟨Rect.unit ![1792, 0] S256x2048.size inb_S2048x2048_S256x2048_1792_0, k0_pay17 (F := Ideal) (k0_pay15 v36) (k0_pay16 v36)⟩,
       ⟨Rect.unit ![1536, 0] S256x2048.size inb_S2048x2048_S256x2048_1536_0, k0_pay14 (F := Ideal) v36⟩,
       ⟨Rect.unit ![1280, 0] S256x2048.size inb_S2048x2048_S256x2048_1280_0, k0_pay13 (F := Ideal) v36⟩,
       ⟨Rect.unit ![1024, 0] S256x2048.size inb_S2048x2048_S256x2048_1024_0, k0_pay12 (F := Ideal) (k0_pay11 v36)⟩,
       ⟨Rect.unit ![768, 0] S256x2048.size inb_S2048x2048_S256x2048_768_0, k0_pay10 (F := Ideal) v36⟩,
       ⟨Rect.unit ![512, 0] S256x2048.size inb_S2048x2048_S256x2048_512_0, k0_pay9 (F := Ideal) v36⟩,
       ⟨Rect.unit ![256, 0] S256x2048.size inb_S2048x2048_S256x2048_256_0, k0_pay8 (F := Ideal) (k0_pay6 v36) (k0_pay7 v36)⟩,
       ⟨Rect.unit ![0, 0] S256x2048.size inb_S2048x2048_S256x2048_0_0, k0_pay5 (F := Ideal) v36⟩] (ix2 l k) = Asm x2 l k := by
  refine (View.canon_apply_of_pieces (fun y => Asm x2 ⟨(y 0).val, (y 0).isLt⟩ ⟨(y 1).val, (y 1).isLt⟩) _ ?_ (ix2 l k) ?_).trans rfl
  · intro p hp x
    simp only [List.mem_cons, List.mem_nil_iff, or_false] at hp
    rcases hp with rfl | rfl | rfl | rfl | rfl | rfl | rfl | rfl
    all_goals obtain ⟨q, k', rfl⟩ : ∃ (q : Fin 256) (k' : Fin 2048), x = ix2 q k' := ⟨x 0, x 1, eq_ix2 x⟩
    · exact (a2band7 v36 x2 h36 q k').trans (congrArg₂ _ (Fin.ext (by show 256 * 7 + q.val = 1792 + 1 * q.val; omega)) (Fin.ext (by show k'.val = 0 + 1 * k'.val; omega)))
    · exact (a2band6 v36 x2 h36 q k').trans (congrArg₂ _ (Fin.ext (by show 256 * 6 + q.val = 1536 + 1 * q.val; omega)) (Fin.ext (by show k'.val = 0 + 1 * k'.val; omega)))
    · exact (a2band5 v36 x2 h36 q k').trans (congrArg₂ _ (Fin.ext (by show 256 * 5 + q.val = 1280 + 1 * q.val; omega)) (Fin.ext (by show k'.val = 0 + 1 * k'.val; omega)))
    · exact (a2band4 v36 x2 h36 q k').trans (congrArg₂ _ (Fin.ext (by show 256 * 4 + q.val = 1024 + 1 * q.val; omega)) (Fin.ext (by show k'.val = 0 + 1 * k'.val; omega)))
    · exact (a2band3 v36 x2 h36 q k').trans (congrArg₂ _ (Fin.ext (by show 256 * 3 + q.val = 768 + 1 * q.val; omega)) (Fin.ext (by show k'.val = 0 + 1 * k'.val; omega)))
    · exact (a2band2 v36 x2 h36 q k').trans (congrArg₂ _ (Fin.ext (by show 256 * 2 + q.val = 512 + 1 * q.val; omega)) (Fin.ext (by show k'.val = 0 + 1 * k'.val; omega)))
    · exact (a2band1 v36 x2 h36 q k').trans (congrArg₂ _ (Fin.ext (by show 256 * 1 + q.val = 256 + 1 * q.val; omega)) (Fin.ext (by show k'.val = 0 + 1 * k'.val; omega)))
    · exact (a2band0 v36 x2 h36 q k').trans (congrArg₂ _ (Fin.ext (by show 256 * 0 + q.val = 0 + 1 * q.val; omega)) (Fin.ext (by show k'.val = 0 + 1 * k'.val; omega)))
  · exact View.cover_of_tiledL (s := S2048x2048) _ S256x2048.size (by sl_kernel_rfl) _

/-- The eight bands of T, the last stored first in the list, leave `(x1 x2ᵀ) a2ᵀ`. -/
theorem canonT_apply (v36 v157 : Vec Ideal S2048x512 .bf16) (v158 : Vec Ideal S2048x2048 .bf16)
    (x1 x2 : Fin 2048 → Fin 512 → EReal) (a2 : Fin 2048 → Fin 2048 → EReal)
    (h36 : ∀ r d, v36 (ix2 r d) = x2 r d) (h157 : ∀ r d, v157 (ix2 r d) = x1 r d)
    (h158 : ∀ l k, v158 (ix2 l k) = a2 l k) (j l : Fin 2048) :
    View.canon (Val := Elt Ideal) (s := S2048x2048) (e := .bf16)
      [⟨Rect.unit ![1792, 0] S256x2048.size inb_S2048x2048_S256x2048_1792_0, k0_pay1 (F := Ideal) (k0_pay25 v36 v157 v158)⟩,
       ⟨Rect.unit ![1536, 0] S256x2048.size inb_S2048x2048_S256x2048_1536_0, k0_pay24 (F := Ideal) v36 v157 v158⟩,
       ⟨Rect.unit ![1280, 0] S256x2048.size inb_S2048x2048_S256x2048_1280_0, k0_pay23 (F := Ideal) v36 v157 v158⟩,
       ⟨Rect.unit ![1024, 0] S256x2048.size inb_S2048x2048_S256x2048_1024_0, k0_pay22 (F := Ideal) v36 v157 v158⟩,
       ⟨Rect.unit ![768, 0] S256x2048.size inb_S2048x2048_S256x2048_768_0, k0_pay21 (F := Ideal) v36 v157 v158⟩,
       ⟨Rect.unit ![512, 0] S256x2048.size inb_S2048x2048_S256x2048_512_0, k0_pay20 (F := Ideal) v36 v157 v158⟩,
       ⟨Rect.unit ![256, 0] S256x2048.size inb_S2048x2048_S256x2048_256_0, k0_pay19 (F := Ideal) v36 v157 v158⟩,
       ⟨Rect.unit ![0, 0] S256x2048.size inb_S2048x2048_S256x2048_0_0, k0_pay18 (F := Ideal) v36 v157 v158⟩] (ix2 j l) = ∑ k : Fin 2048, gram x1 x2 j k * a2 l k := by
  refine (View.canon_apply_of_pieces (fun y => ∑ k : Fin 2048, gram x1 x2 ⟨(y 0).val, (y 0).isLt⟩ k * a2 ⟨(y 1).val, (y 1).isLt⟩ k) _ ?_ (ix2 j l) ?_).trans rfl
  · intro p hp x
    simp only [List.mem_cons, List.mem_nil_iff, or_false] at hp
    rcases hp with rfl | rfl | rfl | rfl | rfl | rfl | rfl | rfl
    all_goals obtain ⟨q, k', rfl⟩ : ∃ (q : Fin 256) (k' : Fin 2048), x = ix2 q k' := ⟨x 0, x 1, eq_ix2 x⟩
    · refine (tband7 v36 v157 v158 x1 x2 a2 h36 h157 h158 q k').trans ?_
      have e0 : band 7 (by decide) q = ⟨((Rect.unit (s := S2048x2048) ![1792, 0] S256x2048.size inb_S2048x2048_S256x2048_1792_0).emb (ix2 q k') 0).val, ((Rect.unit (s := S2048x2048) ![1792, 0] S256x2048.size inb_S2048x2048_S256x2048_1792_0).emb (ix2 q k') 0).isLt⟩ := Fin.ext (by show 256 * 7 + q.val = 1792 + 1 * q.val; omega)
      have e1 : k' = ⟨((Rect.unit (s := S2048x2048) ![1792, 0] S256x2048.size inb_S2048x2048_S256x2048_1792_0).emb (ix2 q k') 1).val, ((Rect.unit (s := S2048x2048) ![1792, 0] S256x2048.size inb_S2048x2048_S256x2048_1792_0).emb (ix2 q k') 1).isLt⟩ := Fin.ext (by show k'.val = 0 + 1 * k'.val; omega)
      rw [← e0, ← e1]
    · refine (tband6 v36 v157 v158 x1 x2 a2 h36 h157 h158 q k').trans ?_
      have e0 : band 6 (by decide) q = ⟨((Rect.unit (s := S2048x2048) ![1536, 0] S256x2048.size inb_S2048x2048_S256x2048_1536_0).emb (ix2 q k') 0).val, ((Rect.unit (s := S2048x2048) ![1536, 0] S256x2048.size inb_S2048x2048_S256x2048_1536_0).emb (ix2 q k') 0).isLt⟩ := Fin.ext (by show 256 * 6 + q.val = 1536 + 1 * q.val; omega)
      have e1 : k' = ⟨((Rect.unit (s := S2048x2048) ![1536, 0] S256x2048.size inb_S2048x2048_S256x2048_1536_0).emb (ix2 q k') 1).val, ((Rect.unit (s := S2048x2048) ![1536, 0] S256x2048.size inb_S2048x2048_S256x2048_1536_0).emb (ix2 q k') 1).isLt⟩ := Fin.ext (by show k'.val = 0 + 1 * k'.val; omega)
      rw [← e0, ← e1]
    · refine (tband5 v36 v157 v158 x1 x2 a2 h36 h157 h158 q k').trans ?_
      have e0 : band 5 (by decide) q = ⟨((Rect.unit (s := S2048x2048) ![1280, 0] S256x2048.size inb_S2048x2048_S256x2048_1280_0).emb (ix2 q k') 0).val, ((Rect.unit (s := S2048x2048) ![1280, 0] S256x2048.size inb_S2048x2048_S256x2048_1280_0).emb (ix2 q k') 0).isLt⟩ := Fin.ext (by show 256 * 5 + q.val = 1280 + 1 * q.val; omega)
      have e1 : k' = ⟨((Rect.unit (s := S2048x2048) ![1280, 0] S256x2048.size inb_S2048x2048_S256x2048_1280_0).emb (ix2 q k') 1).val, ((Rect.unit (s := S2048x2048) ![1280, 0] S256x2048.size inb_S2048x2048_S256x2048_1280_0).emb (ix2 q k') 1).isLt⟩ := Fin.ext (by show k'.val = 0 + 1 * k'.val; omega)
      rw [← e0, ← e1]
    · refine (tband4 v36 v157 v158 x1 x2 a2 h36 h157 h158 q k').trans ?_
      have e0 : band 4 (by decide) q = ⟨((Rect.unit (s := S2048x2048) ![1024, 0] S256x2048.size inb_S2048x2048_S256x2048_1024_0).emb (ix2 q k') 0).val, ((Rect.unit (s := S2048x2048) ![1024, 0] S256x2048.size inb_S2048x2048_S256x2048_1024_0).emb (ix2 q k') 0).isLt⟩ := Fin.ext (by show 256 * 4 + q.val = 1024 + 1 * q.val; omega)
      have e1 : k' = ⟨((Rect.unit (s := S2048x2048) ![1024, 0] S256x2048.size inb_S2048x2048_S256x2048_1024_0).emb (ix2 q k') 1).val, ((Rect.unit (s := S2048x2048) ![1024, 0] S256x2048.size inb_S2048x2048_S256x2048_1024_0).emb (ix2 q k') 1).isLt⟩ := Fin.ext (by show k'.val = 0 + 1 * k'.val; omega)
      rw [← e0, ← e1]
    · refine (tband3 v36 v157 v158 x1 x2 a2 h36 h157 h158 q k').trans ?_
      have e0 : band 3 (by decide) q = ⟨((Rect.unit (s := S2048x2048) ![768, 0] S256x2048.size inb_S2048x2048_S256x2048_768_0).emb (ix2 q k') 0).val, ((Rect.unit (s := S2048x2048) ![768, 0] S256x2048.size inb_S2048x2048_S256x2048_768_0).emb (ix2 q k') 0).isLt⟩ := Fin.ext (by show 256 * 3 + q.val = 768 + 1 * q.val; omega)
      have e1 : k' = ⟨((Rect.unit (s := S2048x2048) ![768, 0] S256x2048.size inb_S2048x2048_S256x2048_768_0).emb (ix2 q k') 1).val, ((Rect.unit (s := S2048x2048) ![768, 0] S256x2048.size inb_S2048x2048_S256x2048_768_0).emb (ix2 q k') 1).isLt⟩ := Fin.ext (by show k'.val = 0 + 1 * k'.val; omega)
      rw [← e0, ← e1]
    · refine (tband2 v36 v157 v158 x1 x2 a2 h36 h157 h158 q k').trans ?_
      have e0 : band 2 (by decide) q = ⟨((Rect.unit (s := S2048x2048) ![512, 0] S256x2048.size inb_S2048x2048_S256x2048_512_0).emb (ix2 q k') 0).val, ((Rect.unit (s := S2048x2048) ![512, 0] S256x2048.size inb_S2048x2048_S256x2048_512_0).emb (ix2 q k') 0).isLt⟩ := Fin.ext (by show 256 * 2 + q.val = 512 + 1 * q.val; omega)
      have e1 : k' = ⟨((Rect.unit (s := S2048x2048) ![512, 0] S256x2048.size inb_S2048x2048_S256x2048_512_0).emb (ix2 q k') 1).val, ((Rect.unit (s := S2048x2048) ![512, 0] S256x2048.size inb_S2048x2048_S256x2048_512_0).emb (ix2 q k') 1).isLt⟩ := Fin.ext (by show k'.val = 0 + 1 * k'.val; omega)
      rw [← e0, ← e1]
    · refine (tband1 v36 v157 v158 x1 x2 a2 h36 h157 h158 q k').trans ?_
      have e0 : band 1 (by decide) q = ⟨((Rect.unit (s := S2048x2048) ![256, 0] S256x2048.size inb_S2048x2048_S256x2048_256_0).emb (ix2 q k') 0).val, ((Rect.unit (s := S2048x2048) ![256, 0] S256x2048.size inb_S2048x2048_S256x2048_256_0).emb (ix2 q k') 0).isLt⟩ := Fin.ext (by show 256 * 1 + q.val = 256 + 1 * q.val; omega)
      have e1 : k' = ⟨((Rect.unit (s := S2048x2048) ![256, 0] S256x2048.size inb_S2048x2048_S256x2048_256_0).emb (ix2 q k') 1).val, ((Rect.unit (s := S2048x2048) ![256, 0] S256x2048.size inb_S2048x2048_S256x2048_256_0).emb (ix2 q k') 1).isLt⟩ := Fin.ext (by show k'.val = 0 + 1 * k'.val; omega)
      rw [← e0, ← e1]
    · refine (tband0 v36 v157 v158 x1 x2 a2 h36 h157 h158 q k').trans ?_
      have e0 : band 0 (by decide) q = ⟨((Rect.unit (s := S2048x2048) ![0, 0] S256x2048.size inb_S2048x2048_S256x2048_0_0).emb (ix2 q k') 0).val, ((Rect.unit (s := S2048x2048) ![0, 0] S256x2048.size inb_S2048x2048_S256x2048_0_0).emb (ix2 q k') 0).isLt⟩ := Fin.ext (by show 256 * 0 + q.val = 0 + 1 * q.val; omega)
      have e1 : k' = ⟨((Rect.unit (s := S2048x2048) ![0, 0] S256x2048.size inb_S2048x2048_S256x2048_0_0).emb (ix2 q k') 1).val, ((Rect.unit (s := S2048x2048) ![0, 0] S256x2048.size inb_S2048x2048_S256x2048_0_0).emb (ix2 q k') 1).isLt⟩ := Fin.ext (by show k'.val = 0 + 1 * k'.val; omega)
      rw [← e0, ← e1]
  · exact View.cover_of_tiledL (s := S2048x2048) _ S256x2048.size (by sl_kernel_rfl) _

/-! ## What the first row-block's loads read back -/

section Reads
variable {F : FTy → Type} [FloatOps F]

variable (c : Dev nD) (i : grid0.Coords)
  (arg2 : Memref sig .tc .vmem S1x2048x512 .f32) (harg2 : arg2.IsWhole) (arg3 : Memref sig .tc .vmem S1x2048x512 .f32) (harg3 : arg3.IsWhole)
  (arg5 : Memref sig .tc .vmem S2048x512 .bf16) (arg6 : Memref sig .tc .vmem S2048x512 .bf16)
  (arg7 : Memref sig .tc .vmem S2048x2048 .bf16) (arg8 : Memref sig .tc .vmem S2048x2048 .bf16)
  (x0 x1 : Vec F S1x2048x512 .f32)

/-- The kept copy of x2, read back, is the cast of the x2 block. -/
theorem v36_eq : kernelRun0_A.sl.v36 c arg3 harg3 arg6 x1 = k0_pay4 x1 := by
  unfold kernelRun0_A.sl.v36 kernelRun0_A.sl.HS1_1
  rw [View.readCov_unit_zero (S := S2048x512) _ hz2]
  simp only [View.readAt_eq_ld, harg3.read_unread, View.ld_unit_zero (S := S1x2048x512) hz3]

/-- The kept copy of x1, read back, is the cast of the x1 block. -/
theorem v157_eq : kernelRun0_A.sl.v157 c arg2 harg2 arg5 x0 = k0_pay3 x0 := by
  unfold kernelRun0_A.sl.v157 kernelRun0_A.sl.HS0_1
  rw [View.readCov_unit_zero (S := S2048x512) _ hz2]
  simp only [View.readAt_eq_ld, harg2.read_unread, View.ld_unit_zero (S := S1x2048x512) hz3]

theorem v7_eq : kernelRun0_A.sl.v7 c arg2 harg2 arg5 x0 = k0_pay3 x0 := by
  unfold kernelRun0_A.sl.v7 kernelRun0_A.sl.HS0_1
  rw [View.readCov_unit_zero (S := S2048x512) _ hz2]
  simp only [View.readAt_eq_ld, harg2.read_unread, View.ld_unit_zero (S := S1x2048x512) hz3]

theorem v6_eq : kernelRun0_A.sl.v6 c i arg2 harg2 arg5 x0 = fun j => k0_pay3 x0 ((Rect.unit (s := S2048x512) (k0_off1 i) S256x512.size (k0_off1_inb i)).toLoadRect.idx j) := by
  unfold kernelRun0_A.sl.v6 kernelRun0_A.sl.HS0_1
  rw [View.readAt_writes_junk_eq_canon, View.canon_unit_zero (S := S2048x512) hz2]
  simp only [View.readAt_eq_ld, harg2.read_unread, View.ld_unit_zero (S := S1x2048x512) hz3]

end Reads

/-! ## The first row-block's scratch and output -/

section FirstBlock
variable (c : Dev nD) (i : grid0.Coords)
  (arg2 : Memref sig .tc .vmem S1x2048x512 .f32) (harg2 : arg2.IsWhole) (arg3 : Memref sig .tc .vmem S1x2048x512 .f32) (harg3 : arg3.IsWhole)
  (arg5 : Memref sig .tc .vmem S2048x512 .bf16) (arg6 : Memref sig .tc .vmem S2048x512 .bf16)
  (arg7 : Memref sig .tc .vmem S2048x2048 .bf16) (arg8 : Memref sig .tc .vmem S2048x2048 .bf16)
  (x0 x1 : Vec Ideal S1x2048x512 .f32)

/-- A(x2), read back whole after its eight bands were stored. -/
theorem v158_apply (l k : Fin 2048) :
    kernelRun0_A.sl.v158 (F := Ideal) c arg3 harg3 arg6 arg7 x1 (ix2 l k) = Asm (blk x1) l k := by
  unfold kernelRun0_A.sl.v158 kernelRun0_A.sl.HS2_8
  rw [View.readCov_whole_eq_canon _ hz2]
  simp only [kernelRun0_A.sl.r, kernelRun0_A.sl.r_1, kernelRun0_A.sl.r_2, kernelRun0_A.sl.r_3, kernelRun0_A.sl.r_4, v36_eq]
  exact canonA2_apply (k0_pay4 x1) (blk x1) (fun r d => pay4_apply x1 r d) l k

/-- The eight bands of T as the first row-block stores them leave `Tm` of the two blocks. -/
theorem hs3_apply (j l : Fin 2048) :
    View.canon (kernelRun0_A.sl.HS3_8 (F := Ideal) c arg2 harg2 arg3 harg3 arg5 arg6 arg7 x0 x1) (ix2 j l) = Tm (blk x0) (blk x1) j l := by
  unfold kernelRun0_A.sl.HS3_8
  simp only [kernelRun0_A.sl.r_5, v36_eq, v157_eq]
  exact canonT_apply (k0_pay4 x1) (k0_pay3 x0) _ (blk x0) (blk x1) (Asm (blk x1)) (fun r d => pay4_apply x1 r d)
    (fun r d => pay3_apply x0 r d) (fun l k => v158_apply c arg3 harg3 arg6 arg7 x1 l k) j l

/-- T, read back whole. -/
theorem v19_apply (j l : Fin 2048) :
    kernelRun0_A.sl.v19 (F := Ideal) c arg2 harg2 arg3 harg3 arg5 arg6 arg7 arg8 x0 x1 (ix2 j l) = Tm (blk x0) (blk x1) j l := by
  unfold kernelRun0_A.sl.v19
  rw [View.readCov_whole_eq_canon _ hz2]
  exact hs3_apply c arg2 harg2 arg3 harg3 arg5 arg6 arg7 x0 x1 j l

end FirstBlock

/-! ## The four facts about a point's run -/

/-- The rows of the kept x1 that the output block at grid coordinates `i` loads: rows `rowOf i p`. -/
theorem idx_rowOf (i : grid0.Coords) (p : Fin 256) (d : Fin 512) :
    (Rect.unit (s := S2048x512) (k0_off1 i) S256x512.size (k0_off1_inb i)).toLoadRect.idx (ix2 p d) = ix2 (rowOf i p) d := by
  have e0 : k0_off1 i 0 = 256 * (i 1).val := congrFun (k0_off1_eq i) 0
  have e1 : k0_off1 i 1 = 0 := congrFun (k0_off1_eq i) 1
  funext a
  apply Fin.ext
  match a with
  | ⟨0, _⟩ => show k0_off1 i 0 + 1 * p.val = 256 * (i 1).val + p.val; rw [e0]; omega
  | ⟨1, _⟩ => show k0_off1 i 1 + 1 * d.val = d.val; rw [e1]; omega

/-- At a batch's first row-block the kept copy of x1 is the x1 block. -/
theorem soutA0_apply (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x2048 .bf16) (harg7 : arg7.IsWhole) (arg8 : Memref sig .tc .vmem S2048x2048 .bf16) (harg8 : arg8.IsWhole) (hc0 : cond0_0 i) (x0 x1 : Vec Ideal S1x2048x512 .f32) (r : Fin 2048) (d : Fin 512) :
    sout0_A_0 (F := Ideal) c i arg2 harg2 arg3 harg3 arg4 harg4 arg5 harg5 arg6 harg6 arg7 harg7 arg8 harg8 hc0 x0 x1 (ix2 r d) = blk x0 r d := by
  unfold sout0_A_0
  rw [View.read_writes_eq_canon _ _ _ (scover0_A_0 c i arg2 harg2 arg3 harg3 arg4 harg4 arg5 harg5 arg6 harg6 arg7 harg7 arg8 harg8 hc0 x0 x1)]
  unfold kernelRun0_A
  dsimp only
  unfold kernelRun0_A.sl.HS0_1
  rw [View.canon_unit_zero (S := S2048x512) hz2]
  simp only [View.readAt_eq_ld, harg2.read_unread, View.ld_unit_zero (S := S1x2048x512) hz3]
  exact pay3_apply x0 r d

/-- At a batch's first row-block the kept T is `(x1 x2ᵀ) A(x2)ᵀ` of the two blocks. -/
theorem soutA3_apply (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x2048 .bf16) (harg7 : arg7.IsWhole) (arg8 : Memref sig .tc .vmem S2048x2048 .bf16) (harg8 : arg8.IsWhole) (hc0 : cond0_0 i) (x0 x1 : Vec Ideal S1x2048x512 .f32) (j l : Fin 2048) :
    sout0_A_3 (F := Ideal) c i arg2 harg2 arg3 harg3 arg4 harg4 arg5 harg5 arg6 harg6 arg7 harg7 arg8 harg8 hc0 x0 x1 (ix2 j l) = Tm (blk x0) (blk x1) j l := by
  unfold sout0_A_3
  rw [View.read_writes_eq_canon _ _ _ (scover0_A_3 c i arg2 harg2 arg3 harg3 arg4 harg4 arg5 harg5 arg6 harg6 arg7 harg7 arg8 harg8 hc0 x0 x1)]
  unfold kernelRun0_A
  dsimp only
  exact hs3_apply c arg2 harg2 arg3 harg3 arg5 arg6 arg7 x0 x1 j l

/-- At a batch's first row-block the output block is its rows of `A(x1) T`. -/
theorem outA2_apply (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x2048 .bf16) (harg7 : arg7.IsWhole) (arg8 : Memref sig .tc .vmem S2048x2048 .bf16) (harg8 : arg8.IsWhole) (hc0 : cond0_0 i) (x0 x1 : Vec Ideal S1x2048x512 .f32) (p : Fin 256) (l : Fin 2048) :
    out0_A_2 (F := Ideal) c i arg2 harg2 arg3 harg3 arg4 harg4 arg5 harg5 arg6 harg6 arg7 harg7 arg8 harg8 hc0 x0 x1 (ix3 0 p l) = Out (blk x0) (blk x1) (rowOf i p) l := by
  unfold out0_A_2
  rw [View.read_writes_eq_canon _ _ _ (cover0_A_2 c i arg2 harg2 arg3 harg3 arg4 harg4 arg5 harg5 arg6 harg6 arg7 harg7 arg8 harg8 hc0 x0 x1)]
  unfold kernelRun0_A
  dsimp only
  rw [View.canon_unit_zero (S := S1x256x2048) hz3, v6_eq, v7_eq]
  refine (pay2_apply _ (k0_pay3 x0) _ (blk x0) (Tm (blk x0) (blk x1)) (rowOf i) ?_ (fun r d => pay3_apply x0 r d)
    (fun j l => v19_apply c arg2 harg2 arg3 harg3 arg5 arg6 arg7 arg8 x0 x1 j l) p l).trans rfl
  intro q d
  show k0_pay3 (F := Ideal) x0 ((Rect.unit (s := S2048x512) (k0_off1 i) S256x512.size (k0_off1_inb i)).toLoadRect.idx (ix2 q d)) = _
  rw [idx_rowOf]
  exact pay3_apply x0 _ d

/-- At a later row-block the output block is its rows of `A(X1) T`, with X1 and T what the scratch holds. -/
theorem outB2_apply (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x2048 .bf16) (harg7 : arg7.IsWhole) (arg8 : Memref sig .tc .vmem S2048x2048 .bf16) (harg8 : arg8.IsWhole) (hc0 : ¬cond0_0 i) (x0 x1 : Vec Ideal S1x2048x512 .f32)
    (xs0 : Vec Ideal S2048x512 .bf16) (xs3 : Vec Ideal S2048x2048 .bf16)
    (X1 : Fin 2048 → Fin 512 → EReal) (T : Fin 2048 → Fin 2048 → EReal)
    (h0 : ∀ r d, xs0 (ix2 r d) = X1 r d) (h3 : ∀ j l, xs3 (ix2 j l) = T j l) (p : Fin 256) (l : Fin 2048) :
    out0_B_2 (F := Ideal) c i arg2 harg2 arg3 harg3 arg4 harg4 arg5 harg5 arg6 harg6 arg7 harg7 arg8 harg8 hc0 x0 x1 xs0 xs3 (ix3 0 p l) = ∑ j : Fin 2048, Asm X1 (rowOf i p) j * T j l := by
  unfold out0_B_2
  rw [View.read_writes_eq_canon _ _ _ (cover0_B_2 c i arg2 harg2 arg3 harg3 arg4 harg4 arg5 harg5 arg6 harg6 arg7 harg7 arg8 harg8 hc0 x0 x1 xs0 xs3)]
  unfold kernelRun0_B
  dsimp only
  rw [View.canon_unit_zero (S := S1x256x2048) hz3]
  simp only [View.readAt_eq_ld, harg5.read_unread, harg8.read_unread, View.ld_unit_zero (S := S2048x512) hz2,
    View.ld_unit_zero (S := S2048x2048) hz2]
  refine pay2_apply _ xs0 xs3 X1 T (rowOf i) ?_ h0 h3 p l
  intro q d
  show xs0 ((Rect.unit (s := S2048x512) (k0_off1 i) S256x512.size (k0_off1_inb i)).toLoadRect.idx (ix2 q d)) = _
  rw [idx_rowOf]
  exact h0 _ d

end Bilinear.Pieces
end
-- ==== Proof.Invariant.lean ====
/-
  What the output's staging buffer holds after each grid point.

  Grid point t is (batch t / 8, row-block t % 8). The scratch the kernel carries holds, after every point of batch b,
  the batch's x1 and T = (x1 x2ᵀ) A(x2)ᵀ: the first row-block of the batch writes them, the later ones leave them.
  So after every point the output's staging buffer holds rows [256 (t % 8), 256 (t % 8) + 256) of Out for batch t / 8.
-/
import proofs.«400291_j1580547969010_3_alg».proof.Proof.Gen.KernelIdeal.Value
import proofs.«400291_j1580547969010_3_alg».proof.Proof.Pieces
import Idealize.ShloMosaic.Lib.Pipeline.Value
import Idealize.ShloMosaic.Lib.ValueIdx

set_option maxRecDepth 16384

noncomputable section

namespace Bilinear.Inv

open Idealize.ShloMosaic Idealize.ShloMosaic.TcCoe Idealize.ShloMosaic.ValueIdx Idealize.SL.Sem
open Cert.KernelIdeal Cert.KernelIdeal.Gen Bilinear Bilinear.Pieces

variable (m : (ℓ : Loc nD τ sig) → Buf (Elt Ideal) ℓ)

/-- The batch of grid point `t`. -/
def bat (t : Fin cfg0.N) : Fin 8 := ⟨t.val / 8, by have h := t.isLt; have hN : cfg0.N = 64 := N_0; omega⟩

/-- The row of the batch's matrices that row `p` of the output block of grid point `t` holds. -/
def rowAt (t : Fin cfg0.N) (p : Fin 256) : Fin 2048 := ⟨256 * (t.val % 8) + p.val, by have := p.isLt; omega⟩

/-- Input window 0 stages block (t / 8, 0, 0) at grid point `t`. -/
private theorem index0 : ∀ t : Fin cfg0.N,
    win0_0.index t (0 : Fin 3) = t.val / 8 ∧ win0_0.index t (1 : Fin 3) = 0 ∧ win0_0.index t (2 : Fin 3) = 0 :=
  (by decide +kernel : ∀ t : Fin grid0.N,
    win0_0.index t (0 : Fin 3) = t.val / 8 ∧ win0_0.index t (1 : Fin 3) = 0 ∧ win0_0.index t (2 : Fin 3) = 0)

/-- Input window 1 stages block (t / 8, 0, 0) at grid point `t`. -/
private theorem index1 : ∀ t : Fin cfg0.N,
    win0_1.index t (0 : Fin 3) = t.val / 8 ∧ win0_1.index t (1 : Fin 3) = 0 ∧ win0_1.index t (2 : Fin 3) = 0 :=
  (by decide +kernel : ∀ t : Fin grid0.N,
    win0_1.index t (0 : Fin 3) = t.val / 8 ∧ win0_1.index t (1 : Fin 3) = 0 ∧ win0_1.index t (2 : Fin 3) = 0)

/-- The second grid coordinate of point `t` is its row-block `t % 8`. -/
private theorem coords1 : ∀ t : Fin cfg0.N, (grid0.coords t 1).val = t.val % 8 :=
  (by decide +kernel : ∀ t : Fin grid0.N, (grid0.coords t 1).val = t.val % 8)

/-- The block input window 0 stages at point `t` is the point's batch of the first array. -/
private theorem blk_iblk0 (c : Dev nD) (t : Fin cfg0.N) :
    blk (iblk (F := Ideal) m c 0 t) = sel (V m c main_arg0) (bat t) := by
  obtain ⟨h0, h1, h2⟩ := index0 t
  funext r d
  unfold blk sel iblk
  rw [View.read_apply]
  show V m c main_arg0 _ = V m c main_arg0 _
  congr 1
  funext a
  apply Fin.ext
  match a with
  | ⟨0, _⟩ => show win0_0.index t 0 * 1 + 1 * 0 = t.val / 8; rw [h0]; omega
  | ⟨1, _⟩ => show win0_0.index t 1 * 2048 + 1 * r.val = r.val; rw [h1]; omega
  | ⟨2, _⟩ => show win0_0.index t 2 * 512 + 1 * d.val = d.val; rw [h2]; omega

/-- The block input window 1 stages at point `t` is the point's batch of the second array. -/
private theorem blk_iblk1 (c : Dev nD) (t : Fin cfg0.N) :
    blk (iblk (F := Ideal) m c 1 t) = sel (V m c main_arg1) (bat t) := by
  obtain ⟨h0, h1, h2⟩ := index1 t
  funext r d
  unfold blk sel iblk
  rw [View.read_apply]
  show V m c main_arg1 _ = V m c main_arg1 _
  congr 1
  funext a
  apply Fin.ext
  match a with
  | ⟨0, _⟩ => show win0_1.index t 0 * 1 + 1 * 0 = t.val / 8; rw [h0]; omega
  | ⟨1, _⟩ => show win0_1.index t 1 * 2048 + 1 * r.val = r.val; rw [h1]; omega
  | ⟨2, _⟩ => show win0_1.index t 2 * 512 + 1 * d.val = d.val; rw [h2]; omega

/-- Consecutive points inside a batch share the batch. -/
private theorem bat_pred (n : ℕ) (h : n + 1 < cfg0.N) (h0 : ¬(n + 1) % 8 = 0) :
    bat ⟨n, Nat.lt_of_succ_lt h⟩ = bat ⟨n + 1, h⟩ :=
  Fin.ext (by show n / 8 = (n + 1) / 8; omega)

/-- The scratch the kernel carries: after point `n` it holds the batch's first matrix and the batch's
    `T = (x1 x2ᵀ) A(x2)ᵀ`. The first row-block of a batch writes both; a later one leaves what the point before left. -/
private theorem carried (c : Dev nD) (n : ℕ) : ∀ h : n < cfg0.N,
    (∀ r d, (outsAt0 (F := Ideal) m c n h).2.1 (ix2 r d) = sel (V m c main_arg0) (bat ⟨n, h⟩) r d)
    ∧ (∀ j l, (outsAt0 (F := Ideal) m c n h).2.2 (ix2 j l)
        = Tm (sel (V m c main_arg0) (bat ⟨n, h⟩)) (sel (V m c main_arg1) (bat ⟨n, h⟩)) j l) := by
  induction n with
  | zero =>
    intro h
    rw [outsAt0_A m c ⟨0, h⟩ rfl]; dsimp only
    refine ⟨fun r d => ?_, fun j l => ?_⟩
    · rw [soutA0_apply, blk_iblk0]
    · rw [soutA3_apply, blk_iblk0, blk_iblk1]
  | succ k ih =>
    intro h
    by_cases h0 : (k + 1) % 8 = 0
    · rw [outsAt0_A m c ⟨k + 1, h⟩ h0]; dsimp only
      refine ⟨fun r d => ?_, fun j l => ?_⟩
      · rw [soutA0_apply, blk_iblk0]
      · rw [soutA3_apply, blk_iblk0, blk_iblk1]
    · rw [outsAt0_B m c ⟨k + 1, h⟩ h0]; dsimp only
      unfold sout0_B_0 sout0_B_3
      rw [← bat_pred k h h0]
      exact ih (Nat.lt_of_succ_lt h)

/-- After grid point `t` the output's staging buffer holds its rows of `Out` for the point's batch. -/
theorem point_out (c : Dev nD) (t : Fin cfg0.N) (p : Fin 256) (l : Fin 2048) :
    (outsAt0 (F := Ideal) m c t.val t.isLt).1 (ix3 0 p l)
      = Out (sel (V m c main_arg0) (bat t)) (sel (V m c main_arg1) (bat t)) (rowAt t p) l := by
  have hrow : rowOf (grid0.coords t) p = rowAt t p :=
    Fin.ext (by show 256 * (grid0.coords t 1).val + p.val = 256 * (t.val % 8) + p.val; rw [coords1 t])
  by_cases h0 : t.val % 8 = 0
  · rw [outsAt0_A m c t h0]; dsimp only
    rw [outA2_apply, blk_iblk0, blk_iblk1, hrow]
  · have hN : cfg0.N = 64 := N_0
    have hlt := t.isLt
    have hb : bat ⟨t.val - 1, Nat.lt_of_le_of_lt (Nat.sub_le _ _) t.isLt⟩ = bat t :=
      Fin.ext (by show (t.val - 1) / 8 = t.val / 8; omega)
    obtain ⟨i0, i3⟩ := carried m c (t.val - 1) (Nat.lt_of_le_of_lt (Nat.sub_le _ _) t.isLt)
    rw [hb] at i0 i3
    rw [outsAt0_B m c t h0]; dsimp only
    rw [outB2_apply c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _)
      scM0_3 (Memref.isWhole_whole _) (fun h => h0 ((hcond0_0 t).mp h)) (iblk m c 0 t) (iblk m c 1 t) _ _
      (sel (V m c main_arg0) (bat t)) (Tm (sel (V m c main_arg0) (bat t)) (sel (V m c main_arg1) (bat t))) i0 i3, hrow]
    rfl

end Bilinear.Inv

end
-- ==== Proof.Blocks.lean ====
/-
  From the grid points' blocks to the whole result array.

  Grid point t writes back block (t / 8, t % 8, 0) of the [8, 2048, 2048] result: one batch, 256 rows, all columns.
  The 64 blocks tile the array, so if every point's block holds its rows of `Out` the array ends at `G`.
-/
import proofs.«400291_j1580547969010_3_alg».proof.Proof.Gen.KernelIdeal.Value
import proofs.«400291_j1580547969010_3_alg».proof.Proof.Spec
import Idealize.ShloMosaic.Lib.Pipeline.Value
import Idealize.ShloMosaic.Lib.ValueIdx

set_option maxRecDepth 16384

noncomputable section

namespace Bilinear.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Bilinear

variable (m : (ℓ : Loc nD τ sig) → Buf (Elt Ideal) ℓ) (ρ : Dev nD → PrngReg)

/-- The printed index map of the output window, decided once over the 64 grid points: point `t` has block index
    `(t / 8, t % 8, 0)`. -/
theorem idx_facts : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, _)

/-- `G` at an index whose coordinates are known. -/
theorem G_at (a0 a1 : (⟨3, ![8, 2048, 512]⟩ : Shape).Idx → EReal) (y : (⟨3, ![8, 2048, 2048]⟩ : Shape).Idx)
    (b r l : ℕ) (hb : b < 8) (hr : r < 2048) (hl : l < 2048)
    (h0 : (y 0).val = b) (h1 : (y 1).val = r) (h2 : (y 2).val = l) :
    G a0 a1 y = Out (sel a0 ⟨b, hb⟩) (sel a1 ⟨b, hb⟩) ⟨r, hr⟩ ⟨l, hl⟩ := by
  subst h0 h1 h2; rfl

/-- An index of the array is in point `t`'s block iff each coordinate is in the block's range on its axis. -/
theorem mem_blk (t : Fin cfg0.N) (i : S8x2048x2048.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_v0).slice (win0_2.rect t)).set ↔ _
  rw [View.set_slice_whole, Rect.mem_set_unit]
  exact Iff.rfl

/-- What point `t` writes back is block `t` of `G` of the two argument arrays: element `(0, p, l)` of the block sits
    in the array at `(t / 8, 256 (t % 8) + p, l)`. -/
theorem flushed_eq (c : Dev nD)
    (hpt : ∀ (t : Fin cfg0.N) (p : Fin 256) (l : Fin 2048),
      (outsAt0 (F := Ideal) m c t.val t.isLt).1 (ix3 0 p l)
        = Out (sel (V m c main_arg0) ⟨t.val / 8, by have h := t.isLt; have hN : cfg0.N = 64 := N_0; omega⟩)
              (sel (V m c main_arg1) ⟨t.val / 8, by have h := t.isLt; have hN : cfg0.N = 64 := N_0; omega⟩)
              ⟨256 * (t.val % 8) + p.val, by have := p.isLt; omega⟩ l) (t : Fin cfg0.N) :
    (dats m 0 c).flushed 2 t = ((cfg0.win 2).blk t).view.read (Elt Ideal) (G (V m c main_arg0) (V m c main_arg1)) := by
  rw [flushed2]
  obtain ⟨e0, e1, e2⟩ := idx_facts t
  have key : ∀ (p : Fin 256) (l : Fin 2048),
      (outsAt0 (F := Ideal) m c t.val t.isLt).1 (ix3 0 p l)
        = G (V m c main_arg0) (V m c main_arg1) (((cfg0.win 2).blk t).view.emb (ix3 (0 : Fin 1) p l)) := by
    intro p l
    rw [hpt t p l]
    symm
    apply G_at
    · show win0_2.index t (0 : Fin 3) * 1 + 1 * 0 = t.val / 8
      omega
    · show win0_2.index t (1 : Fin 3) * 256 + 1 * p.val = 256 * (t.val % 8) + p.val
      omega
    · show win0_2.index t (2 : Fin 3) * 2048 + 1 * l.val = l.val
      omega
  funext j
  show (outsAt0 (F := Ideal) m c t.val t.isLt).1 j = G (V m c main_arg0) (V m c main_arg1) (((cfg0.win 2).blk t).view.emb j)
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  rw [hj]
  exact key (j 1) (j 2)

/-- If after every grid point the output's staging buffer holds the point's rows of `Out` for the point's batch, the
    result array ends at `G` of the two argument arrays as the region finds them. -/
theorem final (c : Dev nD)
    (hpt : ∀ (t : Fin cfg0.N) (p : Fin 256) (l : Fin 2048),
      (outsAt0 (F := Ideal) m c t.val t.isLt).1 (ix3 0 p l)
        = Out (sel (V m c main_arg0) ⟨t.val / 8, by have h := t.isLt; have hN : cfg0.N = 64 := N_0; omega⟩)
              (sel (V m c main_arg1) ⟨t.val / 8, by have h := t.isLt; have hN : cfg0.N = 64 := N_0; omega⟩)
              ⟨256 * (t.val % 8) + p.val, by have := p.isLt; omega⟩ l) :
    (dats m 0 c).arrAt 2 cfg0.N = G (V m c main_arg0) (V m c main_arg1) := by
  refine (dats m 0 c).arrAt_eq_of_cover 2 (G (V m c main_arg0) (V m c main_arg1)) (fun t _ => flushed_eq m c hpt t) ?_
  intro i
  have hi0 : (i 0).val < 8 := (i 0).isLt
  have hi1 : (i 1).val < 2048 := (i 1).isLt
  have hi2 : (i 2).val < 2048 := (i 2).isLt
  have hN : cfg0.N = 64 := N_0
  refine ⟨⟨8 * (i 0).val + (i 1).val / 256, by omega⟩, flush0_2 _, ?_⟩
  rw [mem_blk]
  obtain ⟨e0, e1, e2⟩ := idx_facts ⟨8 * (i 0).val + (i 1).val / 256, by omega⟩
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 256 ≤ (i 1).val ∧ (i 1).val < win0_2.index _ (1 : Fin 3) * 256 + 256
    rw [e1]; dsimp only; omega
  | ⟨2, _⟩ =>
    show win0_2.index _ (2 : Fin 3) * 2048 ≤ (i 2).val ∧ (i 2).val < win0_2.index _ (2 : Fin 3) * 2048 + 2048
    rw [e2]; omega

end Bilinear.Blocks

end
-- ==== Proof.lean ====
/-
  The proof of the certificate's claims.

  Per batch, with x1, x2 the two [2048, 512] matrices and A(x) the row softmax of x xᵀ, the kernel computes
  A(x1) · ((x1 x2ᵀ) · A(x2)ᵀ) and the reference ((x1 x2ᵀ)ᵀ · A(x1)ᵀ)ᵀ · A(x2)ᵀ. Entry (i, l) of either is a double sum
  over (j, k) of A(x1) i j · (x1 x2ᵀ) j k · A(x2) l k, grouped by j first on one side and by k first on the other.
  Under the precondition every input entry is a real number, so every Gram entry, softmax entry and product is real,
  and a finite double sum of reals may be regrouped: the two results are equal element by element.
  The frames are the generated ones; the idealization rewrote no operation.
-/
import proofs.«400291_j1580547969010_3_alg».proof.Defs
import proofs.«400291_j1580547969010_3_alg».proof.Proof.Gen.Kernel
import proofs.«400291_j1580547969010_3_alg».proof.Proof.Gen.Kernel.Skeleton
import proofs.«400291_j1580547969010_3_alg».proof.Proof.Gen.Kernel.Launch
import proofs.«400291_j1580547969010_3_alg».proof.Proof.Gen.Kernel.Points
import proofs.«400291_j1580547969010_3_alg».proof.Proof.Gen.Kernel.Frame
import proofs.«400291_j1580547969010_3_alg».proof.Proof.Gen.KernelIdeal
import proofs.«400291_j1580547969010_3_alg».proof.Proof.Gen.KernelIdeal.Skeleton
import proofs.«400291_j1580547969010_3_alg».proof.Proof.Gen.KernelIdeal.Launch
import proofs.«400291_j1580547969010_3_alg».proof.Proof.Gen.KernelIdeal.Points
import proofs.«400291_j1580547969010_3_alg».proof.Proof.Gen.KernelIdeal.Frame
import proofs.«400291_j1580547969010_3_alg».proof.Proof.Gen.ReferenceIdeal
import proofs.«400291_j1580547969010_3_alg».proof.Proof.Gen.Pre_finite_inputs
import proofs.«400291_j1580547969010_3_alg».proof.Proof.Gen.KernelIdeal.Value
import proofs.«400291_j1580547969010_3_alg».proof.Proof.Gen.ReferenceIdeal.Run
import proofs.«400291_j1580547969010_3_alg».proof.Proof.Gen.ReferenceIdeal.Read
import Idealize.ShloMosaic.Adequacy
import Idealize.ShloMosaic.Init
import proofs.«400291_j1580547969010_3_alg».proof.Proof.Spec
import proofs.«400291_j1580547969010_3_alg».proof.Proof.Finite
import proofs.«400291_j1580547969010_3_alg».proof.Proof.RefValue
import proofs.«400291_j1580547969010_3_alg».proof.Proof.Invariant
import proofs.«400291_j1580547969010_3_alg».proof.Proof.Blocks

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ => ?_, trivial, ?_⟩
  · exact (θ_run Cert.ReferenceIdeal.defs _ _).mono (fun _ h c => (h c).2)
      (Cert.ReferenceIdeal.Value.run (F := Ideal) m ρ)
  · intro m ρ m' ρ' hpre hagree
    refine ⟨fun c => Bilinear.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
    · -- the kernel: the 64 blocks of rows of A(x1) · T tile the result array
      exact (θ_run Cert.KernelIdeal.defs _ _).mono
        (fun r h c => ⟨(h c).1.trans (Bilinear.Blocks.final m c (fun t p l => Bilinear.Inv.point_out m c t p l)), (h c).2⟩)
        (Cert.KernelIdeal.Value.run_blocks (F := Ideal) m ρ)
    · -- the reference: its last stage is the other association, equal on real entries
      refine (θ_run Cert.ReferenceIdeal.defs _ _).mono (fun _ h c => ⟨?_, (h c).2⟩)
        (Cert.ReferenceIdeal.Value.run (F := Ideal) m' ρ')
      obtain ⟨h0, h1⟩ := Bilinear.Finite.real_of_pre _ _ (hpre c)
      rw [(h c).1, Cert.ReferenceIdeal.Read.val_main_v26_eq, Bilinear.Ref.val_eq_GRef, (hagree c).1, (hagree c).2]
      exact (Bilinear.G_eq_GRef _ _ h0 h1).symm⟩

end Cert.Proof

end
